-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2x16384x512 : Shape := ⟨3, ![2, 16384, 512]⟩
abbrev S2x512x2048 : Shape := ⟨3, ![2, 512, 2048]⟩
abbrev S2x2048 : Shape := ⟨2, ![2, 2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2x16384x512 : S_.BroadcastsInDim S2x16384x512 (![] : Fin 0 → Fin S2x16384x512.rank)
  reducesTo_S2x16384x512_S_d0_1_2 : S2x16384x512.ReducesTo [0, 1, 2] S_
  bcast_S_S2x512x2048 : S_.BroadcastsInDim S2x512x2048 (![] : Fin 0 → Fin S2x512x2048.rank)
  reducesTo_S2x512x2048_S_d0_1_2 : S2x512x2048.ReducesTo [0, 1, 2] S_
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_arg4 : FVec F S2x512x2048 .f32) (main_arg5 : FVec F S2x2048 .f32) (main_v13 : IVec S_ 1) (main_v16 : IVec S2x512x2048 1) : IVec S_ 1 :=
  let main_c_5 : IVec S_ 1 := constantI S_ 1 1#1
  let main_v17 : IVec S_ 1 := (fun x v => Host.reduce IntOp.andi x v reducesTo_S2x512x2048_S_d0_1_2 h_S_) main_v16 main_c_5
  let main_v18 : IVec S_ 1 := andi main_v13 main_v17
  let main_v19 : FVec F S2x512x2048 .f32 := Host.absf main_arg4
  let main_cst_6 : FVec F S_ .f32 := constant S_ .f32 0x7F800000#32
  let main_v20 : FVec F S2x512x2048 .f32 := broadcastInDim S2x512x2048 ![] bcast_S_S2x512x2048 main_cst_6
  let main_v21 : IVec S2x512x2048 1 := cmpf .olt main_v19 main_v20
  let main_c_7 : IVec S_ 1 := constantI S_ 1 1#1
  let main_v22 : IVec S_ 1 := (fun x v => Host.reduce IntOp.andi x v reducesTo_S2x512x2048_S_d0_1_2 h_S_) main_v21 main_c_7
  let main_v23 : IVec S_ 1 := andi main_v18 main_v22
  let main_v24 : FVec F S2x2048 .f32 := Host.absf main_arg5
  let main_cst_8 : FVec F S_ .f32 := constant S_ .f32 0x7F800000#32
  let main_v25 : FVec F S2x2048 .f32 := broadcastInDim S2x2048 ![] bcast_S_S2x2048 main_cst_8
  let main_v26 : IVec S2x2048 1 := cmpf .olt main_v24 main_v25
  let main_c_9 : IVec S_ 1 := constantI S_ 1 1#1
  let main_v27 : IVec S_ 1 := (fun x v => Host.reduce IntOp.andi x v reducesTo_S2x2048_S_d0_1 h_S_) main_v26 main_c_9
  let main_v28 : IVec S_ 1 := andi main_v23 main_v27
  main_v28

def fn {F : FTy → Type} [FloatOps F] (main_arg0 : FVec F S16384x512 .f32) (main_arg1 : FVec F S2x16384x512 .f32) (main_arg2 : FVec F S2x16384x512 .f32) (main_arg3 : FVec F S2x512x2048 .f32) (main_arg4 : FVec F S2x512x2048 .f32) (main_arg5 : FVec F S2x2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2x16384x512 .f32 := Host.absf main_arg1
  let main_cst_0 : FVec F S_ .f32 := constant S_ .f32 0x7F800000#32
  let main_v5 : FVec F S2x16384x512 .f32 := broadcastInDim S2x16384x512 ![] bcast_S_S2x16384x512 main_cst_0
  let main_v6 : IVec S2x16384x512 1 := cmpf .olt main_v4 main_v5
  let main_c_1 : IVec S_ 1 := constantI S_ 1 1#1
  let main_v7 : IVec S_ 1 := (fun x v => Host.reduce IntOp.andi x v reducesTo_S2x16384x512_S_d0_1_2 h_S_) main_v6 main_c_1
  let main_v8 : IVec S_ 1 := andi main_v3 main_v7
  let main_v9 : FVec F S2x16384x512 .f32 := Host.absf main_arg2
  let main_cst_2 : FVec F S_ .f32 := constant S_ .f32 0x7F800000#32
  let main_v10 : FVec F S2x16384x512 .f32 := broadcastInDim S2x16384x512 ![] bcast_S_S2x16384x512 main_cst_2
  let main_v11 : IVec S2x16384x512 1 := cmpf .olt main_v9 main_v10
  let main_c_3 : IVec S_ 1 := constantI S_ 1 1#1
  let main_v12 : IVec S_ 1 := (fun x v => Host.reduce IntOp.andi x v reducesTo_S2x16384x512_S_d0_1_2 h_S_) main_v11 main_c_3
  let main_v13 : IVec S_ 1 := andi main_v8 main_v12
  let main_v14 : FVec F S2x512x2048 .f32 := Host.absf main_arg3
  let main_cst_4 : FVec F S_ .f32 := constant S_ .f32 0x7F800000#32
  let main_v15 : FVec F S2x512x2048 .f32 := broadcastInDim S2x512x2048 ![] bcast_S_S2x512x2048 main_cst_4
  let main_v16 : IVec S2x512x2048 1 := cmpf .olt main_v14 main_v15
  fn_part1 (F := F) main_arg4 main_arg5 main_v13 main_v16
-- ==== Kernel.lean ====
abbrev S16384x512 : Shape := ⟨2, ![16384, 512]⟩
abbrev S2x16384x512 : Shape := ⟨3, ![2, 16384, 512]⟩
abbrev S2x512x2048 : Shape := ⟨3, ![2, 512, 2048]⟩
abbrev S2x2048 : Shape := ⟨2, ![2, 2048]⟩
abbrev S2x2x16384x512 : Shape := ⟨4, ![2, 2, 16384, 512]⟩
abbrev S512x512 : Shape := ⟨2, ![512, 512]⟩
abbrev S2x512x512 : Shape := ⟨3, ![2, 512, 512]⟩
abbrev S2x2x512x512 : Shape := ⟨4, ![2, 2, 512, 512]⟩
abbrev S1x512x512 : Shape := ⟨3, ![1, 512, 512]⟩
abbrev S1x512x2048 : Shape := ⟨3, ![1, 512, 2048]⟩
abbrev S512x2048 : Shape := ⟨2, ![512, 2048]⟩
abbrev S1x2048 : Shape := ⟨2, ![1, 2048]⟩
abbrev S2048 : Shape := ⟨1, ![2048]⟩
abbrev S1x1x512x512 : Shape := ⟨4, ![1, 1, 512, 512]⟩

abbrev nBuf : Space → Nat
  | .hbm => 9
  | .vmem => 11
  | .smem => 0
  | _ => 0

abbrev bufTy : (tb : Table) → Fin (tcTables nBuf tb) → BufTy
  | .hbm, ⟨0, _⟩ => ⟨S16384x512, .f32⟩
  | .hbm, ⟨1, _⟩ => ⟨S2x16384x512, .f32⟩
  | .hbm, ⟨2, _⟩ => ⟨S2x16384x512, .f32⟩
  | .hbm, ⟨3, _⟩ => ⟨S2x512x2048, .f32⟩
  | .hbm, ⟨4, _⟩ => ⟨S2x512x2048, .f32⟩
  | .hbm, ⟨5, _⟩ => ⟨S2x2048, .f32⟩
  | .hbm, ⟨6, _⟩ => ⟨S2x512x2048, .bf16⟩
  | .hbm, ⟨7, _⟩ => ⟨S2x512x2048, .bf16⟩
  | .hbm, ⟨8, _⟩ => ⟨S2x2x16384x512, .f32⟩
  | .local _ .vmem, ⟨0, _⟩ => ⟨S512x512, .f32⟩
  | .local _ .vmem, ⟨1, _⟩ => ⟨S512x512, .f32⟩
  | .local _ .vmem, ⟨2, _⟩ => ⟨S2x512x512, .f32⟩
  | .local _ .vmem, ⟨3, _⟩ => ⟨S2x512x512, .f32⟩
  | .local _ .vmem, ⟨4, _⟩ => ⟨S2x512x512, .f32⟩
  | .local _ .vmem, ⟨5, _⟩ => ⟨S2x512x512, .f32⟩
  | .local _ .vmem, ⟨6, _⟩ => ⟨S2x512x2048, .bf16⟩
  | .local _ .vmem, ⟨7, _⟩ => ⟨S2x512x2048, .bf16⟩
  | .local _ .vmem, ⟨8, _⟩ => ⟨S2x2048, .f32⟩
  | .local _ .vmem, ⟨9, _⟩ => ⟨S2x2x512x512, .f32⟩
  | .local _ .vmem, ⟨10, _⟩ => ⟨S2x2x512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2x512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x2x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  inb_S2x512x512_S1x512x512_0_0_0 : ∀ a, (![0, 0, 0] : Fin 3 → Nat) a + S1x512x512.size a ≤ S2x512x512.size a
  h_S1x512x512 : 0 < S1x512x512.numel
  shapeCasts_S1x512x512_S512x512 : S1x512x512.ShapeCasts S512x512
  inb_S2x512x2048_S1x512x2048_0_0_0 : ∀ a, (![0, 0, 0] : Fin 3 → Nat) a + S1x512x2048.size a ≤ S2x512x2048.size a
  h_S1x512x2048 : 0 < S1x512x2048.numel
  shapeCasts_S1x512x2048_S512x2048 : S1x512x2048.ShapeCasts S512x2048
  inb_S2x2048_S1x2048_0_0 : ∀ a, (![0, 0] : Fin 2 → Nat) a + S1x2048.size a ≤ S2x2048.size a
  h_S1x2048 : 0 < S1x2048.numel
  shapeCasts_S1x2048_S2048 : S1x2048.ShapeCasts S2048
  shapeCasts_S2048_S1x2048 : S2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  inb_S2x2x512x512_S1x1x512x512_0_0_0_0 : ∀ a, (![0, 0, 0, 0] : Fin 4 → Nat) a + S1x1x512x512.size a ≤ S2x2x512x512.size a
  h_S1x1x512x512 : 0 < S1x1x512x512.numel
  shapeCasts_S1x1x512x512_S512x512 : S1x1x512x512.ShapeCasts S512x512
  shapeCasts_S512x512_S1x1x512x512 : S512x512.ShapeCasts S1x1x512x512
  inb_S2x2x512x512_S1x1x512x512_0_1_0_0 : ∀ a, (![0, 1, 0, 0] : Fin 4 → Nat) a + S1x1x512x512.size a ≤ S2x2x512x512.size a
  inb_S2x512x512_S1x512x512_1_0_0 : ∀ a, (![1, 0, 0] : Fin 3 → Nat) a + S1x512x512.size a ≤ S2x512x512.size a
  inb_S2x512x2048_S1x512x2048_1_0_0 : ∀ a, (![1, 0, 0] : Fin 3 → Nat) a + S1x512x2048.size a ≤ S2x512x2048.size a
  inb_S2x2048_S1x2048_1_0 : ∀ a, (![1, 0] : Fin 2 → Nat) a + S1x2048.size a ≤ S2x2048.size a
  inb_S2x2x512x512_S1x1x512x512_1_0_0_0 : ∀ a, (![1, 0, 0, 0] : Fin 4 → Nat) a + S1x1x512x512.size a ≤ S2x2x512x512.size a
  inb_S2x2x512x512_S1x1x512x512_1_1_0_0 : ∀ a, (![1, 1, 0, 0] : Fin 4 → Nat) a + S1x1x512x512.size a ≤ S2x2x512x512.size a
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S2x16384x512.size a
  hwx0_1 : ∀ i : grid0.Coords, EltTy.bits .f32 = 32 ∨ (Rect.block (s := S2x16384x512) S2x512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x512x512.size a ≤ S2x16384x512.size a
  hwx0_2 : ∀ i : grid0.Coords, EltTy.bits .f32 = 32 ∨ (Rect.block (s := S2x16384x512) S2x512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x512x2048.size a ≤ S2x512x2048.size a
  hwx0_3 : ∀ i : grid0.Coords, EltTy.bits .bf16 = 32 ∨ (Rect.block (s := S2x512x2048) S2x512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2x512x2048.size a ≤ S2x512x2048.size a
  hwx0_4 : ∀ i : grid0.Coords, EltTy.bits .bf16 = 32 ∨ (Rect.block (s := S2x512x2048) S2x512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2x2048.size a ≤ S2x2048.size a
  hwx0_5 : ∀ i : grid0.Coords, EltTy.bits .f32 = 32 ∨ (Rect.block (s := S2x2048) S2x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2x2x512x512.size a ≤ S2x2x16384x512.size a
  hwx0_6 : ∀ i : grid0.Coords, EltTy.bits .f32 = 32 ∨ (Rect.block (s := S2x2x16384x512) S2x2x512x512.size (cc0_transform_6 i) (hinb0_6 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2x512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S2x512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S2x512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S2x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S2x2x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S16384x512 : Shape := ⟨2, ![16384, 512]⟩
abbrev S2x16384x512 : Shape := ⟨3, ![2, 16384, 512]⟩
abbrev S2x512x2048 : Shape := ⟨3, ![2, 512, 2048]⟩
abbrev S2x2048 : Shape := ⟨2, ![2, 2048]⟩
abbrev S1x16384x512 : Shape := ⟨3, ![1, 16384, 512]⟩
abbrev S1x512x2048 : Shape := ⟨3, ![1, 512, 2048]⟩
abbrev S512x2048 : Shape := ⟨2, ![512, 2048]⟩
abbrev S16384x2048 : Shape := ⟨2, ![16384, 2048]⟩
abbrev S1x2048 : Shape := ⟨2, ![1, 2048]⟩
abbrev S2048 : Shape := ⟨1, ![2048]⟩
abbrev S_ : Shape := ⟨0, ![]⟩
abbrev S2x1x16384x512 : Shape := ⟨4, ![2, 1, 16384, 512]⟩
abbrev S2x2x16384x512 : Shape := ⟨4, ![2, 2, 16384, 512]⟩

abbrev nBuf : Space → Nat
  | .hbm => 115
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2x16384x512, .f32⟩
  | .hbm, ⟨2, _⟩ => ⟨S2x16384x512, .f32⟩
  | .hbm, ⟨3, _⟩ => ⟨S2x512x2048, .f32⟩
  | .hbm, ⟨4, _⟩ => ⟨S2x512x2048, .f32⟩
  | .hbm, ⟨5, _⟩ => ⟨S2x2048, .f32⟩
  | .hbm, ⟨6, _⟩ => ⟨S1x16384x512, .f32⟩
  | .hbm, ⟨7, _⟩ => ⟨S16384x512, .f32⟩
  | .hbm, ⟨8, _⟩ => ⟨S1x16384x512, .f32⟩
  | .hbm, ⟨9, _⟩ => ⟨S16384x512, .f32⟩
  | .hbm, ⟨10, _⟩ => ⟨S1x512x2048, .f32⟩
  | .hbm, ⟨11, _⟩ => ⟨S512x2048, .f32⟩
  | .hbm, ⟨12, _⟩ => ⟨S16384x2048, .f32⟩
  | .hbm, ⟨13, _⟩ => ⟨S1x512x2048, .f32⟩
  | .hbm, ⟨14, _⟩ => ⟨S512x2048, .f32⟩
  | .hbm, ⟨15, _⟩ => ⟨S16384x2048, .f32⟩
  | .hbm, ⟨16, _⟩ => ⟨S16384x2048, .f32⟩
  | .hbm, ⟨17, _⟩ => ⟨S1x2048, .f32⟩
  | .hbm, ⟨18, _⟩ => ⟨S2048, .f32⟩
  | .hbm, ⟨19, _⟩ => ⟨S1x2048, .f32⟩
  | .hbm, ⟨20, _⟩ => ⟨S16384x2048, .f32⟩
  | .hbm, ⟨21, _⟩ => ⟨S16384x2048, .f32⟩
  | .hbm, ⟨22, _⟩ => ⟨S16384x512, .f32⟩
  | .hbm, ⟨23, _⟩ => ⟨S16384x512, .f32⟩
  | .hbm, ⟨24, _⟩ => ⟨S16384x512, .f32⟩
  | .hbm, ⟨25, _⟩ => ⟨S16384x512, .f32⟩
  | .hbm, ⟨26, _⟩ => ⟨S16384x512, .f32⟩
  | .hbm, ⟨27, _⟩ => ⟨S16384x512, .f32⟩
  | .hbm, ⟨28, _⟩ => ⟨S_, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S16384x512, .f32⟩
  | .hbm, ⟨35, _⟩ => ⟨S16384x512, .f32⟩
  | .hbm, ⟨36, _⟩ => ⟨S16384x512, .f32⟩
  | .hbm, ⟨37, _⟩ => ⟨S_, .f32⟩
  | .hbm, ⟨38, _⟩ => ⟨S16384x512, .f32⟩
  | .hbm, ⟨39, _⟩ => ⟨S16384x512, .f32⟩
  | .hbm, ⟨40, _⟩ => ⟨S_, .f32⟩
  | .hbm, ⟨41, _⟩ => ⟨S16384x512, .f32⟩
  | .hbm, ⟨42, _⟩ => ⟨S16384x512, .f32⟩
  | .hbm, ⟨43, _⟩ => ⟨S16384x512, .f32⟩
  | .hbm, ⟨44, _⟩ => ⟨S16384x512, .f32⟩
  | .hbm, ⟨45, _⟩ => ⟨S16384x512, .f32⟩
  | .hbm, ⟨46, _⟩ => ⟨S16384x512, .f32⟩
  | .hbm, ⟨47, _⟩ => ⟨S16384x512, .f32⟩
  | .hbm, ⟨48, _⟩ => ⟨S_, .f32⟩
  | .hbm, ⟨49, _⟩ => ⟨S16384x512, .f32⟩
  | .hbm, ⟨50, _⟩ => ⟨S16384x512, .f32⟩
  | .hbm, ⟨51, _⟩ => ⟨S_, .f32⟩
  | .hbm, ⟨52, _⟩ => ⟨S16384x512, .f32⟩
  | .hbm, ⟨53, _⟩ => ⟨S16384x512, .f32⟩
  | .hbm, ⟨54, _⟩ => ⟨S16384x512, .f32⟩
  | .hbm, ⟨55, _⟩ => ⟨S16384x512, .f32⟩
  | .hbm, ⟨56, _⟩ => ⟨S1x16384x512, .f32⟩
  | .hbm, ⟨57, _⟩ => ⟨S16384x512, .f32⟩
  | .hbm, ⟨58, _⟩ => ⟨S1x16384x512, .f32⟩
  | .hbm, ⟨59, _⟩ => ⟨S16384x512, .f32⟩
  | .hbm, ⟨60, _⟩ => ⟨S1x512x2048, .f32⟩
  | .hbm, ⟨61, _⟩ => ⟨S512x2048, .f32⟩
  | .hbm, ⟨62, _⟩ => ⟨S16384x2048, .f32⟩
  | .hbm, ⟨63, _⟩ => ⟨S1x512x2048, .f32⟩
  | .hbm, ⟨64, _⟩ => ⟨S512x2048, .f32⟩
  | .hbm, ⟨65, _⟩ => ⟨S16384x2048, .f32⟩
  | .hbm, ⟨66, _⟩ => ⟨S16384x2048, .f32⟩
  | .hbm, ⟨67, _⟩ => ⟨S1x2048, .f32⟩
  | .hbm, ⟨68, _⟩ => ⟨S2048, .f32⟩
  | .hbm, ⟨69, _⟩ => ⟨S1x2048, .f32⟩
  | .hbm, ⟨70, _⟩ => ⟨S16384x2048, .f32⟩
  | .hbm, ⟨71, _⟩ => ⟨S16384x2048, .f32⟩
  | .hbm, ⟨72, _⟩ => ⟨S16384x512, .f32⟩
  | .hbm, ⟨73, _⟩ => ⟨S16384x512, .f32⟩
  | .hbm, ⟨74, _⟩ => ⟨S16384x512, .f32⟩
  | .hbm, ⟨75, _⟩ => ⟨S16384x512, .f32⟩
  | .hbm, ⟨76, _⟩ => ⟨S16384x512, .f32⟩
  | .hbm, ⟨77, _⟩ => ⟨S16384x512, .f32⟩
  | .hbm, ⟨78, _⟩ => ⟨S_, .f32⟩
  | .hbm, ⟨79, _⟩ => ⟨S16384x512, .f32⟩
  | .hbm, ⟨80, _⟩ => ⟨S16384x512, .f32⟩
  | .hbm, ⟨81, _⟩ => ⟨S_, .f32⟩
  | .hbm, ⟨82, _⟩ => ⟨S16384x512, .f32⟩
  | .hbm, ⟨83, _⟩ => ⟨S16384x512, .f32⟩
  | .hbm, ⟨84, _⟩ => ⟨S16384x512, .f32⟩
  | .hbm, ⟨85, _⟩ => ⟨S16384x512, .f32⟩
  | .hbm, ⟨86, _⟩ => ⟨S16384x512, .f32⟩
  | .hbm, ⟨87, _⟩ => ⟨S_, .f32⟩
  | .hbm, ⟨88, _⟩ => ⟨S16384x512, .f32⟩
  | .hbm, ⟨89, _⟩ => ⟨S16384x512, .f32⟩
  | .hbm, ⟨90, _⟩ => ⟨S_, .f32⟩
  | .hbm, ⟨91, _⟩ => ⟨S16384x512, .f32⟩
  | .hbm, ⟨92, _⟩ => ⟨S16384x512, .f32⟩
  | .hbm, ⟨93, _⟩ => ⟨S16384x512, .f32⟩
  | .hbm, ⟨94, _⟩ => ⟨S16384x512, .f32⟩
  | .hbm, ⟨95, _⟩ => ⟨S16384x512, .f32⟩
  | .hbm, ⟨96, _⟩ => ⟨S16384x512, .f32⟩
  | .hbm, ⟨97, _⟩ => ⟨S16384x512, .f32⟩
  | .hbm, ⟨98, _⟩ => ⟨S_, .f32⟩
  | .hbm, ⟨99, _⟩ => ⟨S16384x512, .f32⟩
  | .hbm, ⟨100, _⟩ => ⟨S16384x512, .f32⟩
  | .hbm, ⟨101, _⟩ => ⟨S_, .f32⟩
  | .hbm, ⟨102, _⟩ => ⟨S16384x512, .f32⟩
  | .hbm, ⟨103, _⟩ => ⟨S16384x512, .f32⟩
  | .hbm, ⟨104, _⟩ => ⟨S16384x512, .f32⟩
  | .hbm, ⟨105, _⟩ => ⟨S16384x512, .f32⟩
  | .hbm, ⟨106, _⟩ => ⟨S1x16384x512, .f32⟩
  | .hbm, ⟨107, _⟩ => ⟨S1x16384x512, .f32⟩
  | .hbm, ⟨108, _⟩ => ⟨S2x16384x512, .f32⟩
  | .hbm, ⟨109, _⟩ => ⟨S1x16384x512, .f32⟩
  | .hbm, ⟨110, _⟩ => ⟨S1x16384x512, .f32⟩
  | .hbm, ⟨111, _⟩ => ⟨S2x16384x512, .f32⟩
  | .hbm, ⟨112, _⟩ => ⟨S2x1x16384x512, .f32⟩
  | .hbm, ⟨113, _⟩ => ⟨S2x1x16384x512, .f32⟩
  | .hbm, ⟨114, _⟩ => ⟨S2x2x16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst : Ref sig .tc := ⟨.hbm, 28, rfl⟩
abbrev main_v22 : Ref sig .tc := ⟨.hbm, 29, rfl⟩
abbrev main_v23 : Ref sig .tc := ⟨.hbm, 30, rfl⟩
abbrev main_cst_0 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_1 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_3 : Ref sig .tc := ⟨.hbm, 48, rfl⟩
abbrev main_v38 : Ref sig .tc := ⟨.hbm, 49, rfl⟩
abbrev main_v39 : Ref sig .tc := ⟨.hbm, 50, rfl⟩
abbrev main_cst_4 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_cst_5 : Ref sig .tc := ⟨.hbm, 78, rfl⟩
abbrev main_v66 : Ref sig .tc := ⟨.hbm, 79, rfl⟩
abbrev main_v67 : Ref sig .tc := ⟨.hbm, 80, rfl⟩
abbrev main_cst_6 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_cst_7 : Ref sig .tc := ⟨.hbm, 87, rfl⟩
abbrev main_v73 : Ref sig .tc := ⟨.hbm, 88, rfl⟩
abbrev main_v74 : Ref sig .tc := ⟨.hbm, 89, rfl⟩
abbrev main_cst_8 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_cst_9 : Ref sig .tc := ⟨.hbm, 98, rfl⟩
abbrev main_v82 : Ref sig .tc := ⟨.hbm, 99, rfl⟩
abbrev main_v83 : Ref sig .tc := ⟨.hbm, 100, rfl⟩
abbrev main_cst_10 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_v89 : Ref sig .tc := ⟨.hbm, 107, rfl⟩
abbrev main_v90 : Ref sig .tc := ⟨.hbm, 108, rfl⟩
abbrev main_v91 : Ref sig .tc := ⟨.hbm, 109, rfl⟩
abbrev main_v92 : Ref sig .tc := ⟨.hbm, 110, rfl⟩
abbrev main_v93 : Ref sig .tc := ⟨.hbm, 111, rfl⟩
abbrev main_v94 : Ref sig .tc := ⟨.hbm, 112, rfl⟩
abbrev main_v95 : Ref sig .tc := ⟨.hbm, 113, rfl⟩
abbrev main_v96 : Ref sig .tc := ⟨.hbm, 114, rfl⟩

abbrev nD : Nat := 1
abbrev τ : Topo := Topo.v7x

variable {F : FTy → Type} [FloatOps F]

class Facts₀ : Prop where
  slices_S2x16384x512_S1x16384x512_0_0_0 : S2x16384x512.Slices ![0, 0, 0] S1x16384x512
  shapeCasts_S1x16384x512_S16384x512 : S1x16384x512.ShapeCasts S16384x512
  slices_S2x512x2048_S1x512x2048_0_0_0 : S2x512x2048.Slices ![0, 0, 0] S1x512x2048
  shapeCasts_S1x512x2048_S512x2048 : S1x512x2048.ShapeCasts S512x2048
  slices_S2x2048_S1x2048_0_0 : S2x2048.Slices ![0, 0] S1x2048
  shapeCasts_S1x2048_S2048 : S1x2048.ShapeCasts S2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  bcast_S_S16384x512 : S_.BroadcastsInDim S16384x512 (![] : Fin 0 → Fin S16384x512.rank)
  slices_S2x16384x512_S1x16384x512_1_0_0 : S2x16384x512.Slices ![1, 0, 0] S1x16384x512
  slices_S2x512x2048_S1x512x2048_1_0_0 : S2x512x2048.Slices ![1, 0, 0] S1x512x2048
  slices_S2x2048_S1x2048_1_0 : S2x2048.Slices ![1, 0] S1x2048
  bcast_S16384x512_S1x16384x512_1_2 : S16384x512.BroadcastsInDim S1x16384x512 (![1, 2] : Fin 2 → Fin S1x16384x512.rank)
  concatenates_S1x16384x512_S1x16384x512_S2x16384x512_d0 : Shape.Concatenates [S1x16384x512, S1x16384x512] S2x16384x512 0
  bcast_S2x16384x512_S2x1x16384x512_0_2_3 : S2x16384x512.BroadcastsInDim S2x1x16384x512 (![0, 2, 3] : Fin 3 → Fin S2x1x16384x512.rank)
  concatenates_S2x1x16384x512_S2x1x16384x512_S2x2x16384x512_d1 : Shape.Concatenates [S2x1x16384x512, S2x1x16384x512] S2x2x16384x512 1
  dot_S16384x512_S512x2048_S16384x2048_1_0_0_1_n_n_wf : DotDims.WF S16384x512 S512x2048 S16384x2048 [1] [0] [0] [1] [] []

variable [Facts₀]

def dot_S16384x512_S512x2048_S16384x2048_1_0_0_1_n_n : DotDims S16384x512 S512x2048 S16384x2048 where
  lhsContracting := [1]
  rhsContracting := [0]
  lhsNonContracting := [0]
  rhsNonContracting := [1]
  lhsBatch := []
  rhsBatch := []
  wf := dot_S16384x512_S512x2048_S16384x2048_1_0_0_1_n_n_wf

class Facts : Prop extends Facts₀ where

variable [Facts]
-- ==== Proof.Cell.lean ====
/-
  The stacked LSTM step as mathematics, one batch row at a time, on the extended reals.

  A layer takes the row `x` coming from below and the row `r` of its recurrent state, and forms the 2048 gate
  pre-activations `z j = (∑ k, x k · K k j + ∑ k, r k · R k j) + b j`. The four gates of hidden unit `s` sit in
  columns `s`, `512 + s`, `1024 + s`, `1536 + s` (input, forget, candidate, output). The new cell value is
  `σ(z (512 + s)) · c s + σ(z s) · tanh (z (1024 + s))` where `c` is the carried cell row, and the emitted value is
  `σ(z (1536 + s)) · tanh (new cell)`. The second layer is fed the first layer's new CELL row.
  The result stacks, for layer `l`, the emitted row at position `0` and the new cell row at position `1`.
-/
import Idealize.ShloMosaic.PureOps.Ideal
import Idealize.ShloMosaic.Lib.ValueIdx

noncomputable section

open scoped BigOperators

namespace Cert.Lstm

open Idealize.ShloMosaic Idealize.ShloMosaic.ValueIdx

/-- Column `o + s` of the gate axis: hidden unit `s` of the gate whose columns start at `o`. -/
def gcol (o : Nat) (h : o + 512 ≤ 2048) (s : Fin 512) : Fin 2048 := ⟨o + s.val, by have := s.isLt; omega⟩

@[simp] theorem gcol_val (o : Nat) (h : o + 512 ≤ 2048) (s : Fin 512) : (gcol o h s).val = o + s.val := rfl

/-- The gate pre-activations of one row: input times kernel, plus recurrent state times recurrent kernel, plus bias. -/
def preact (x r : Fin 512 → EReal) (K R : Fin 512 → Fin 2048 → EReal) (b : Fin 2048 → EReal) (j : Fin 2048) : EReal :=
  ((∑ k : Fin 512, x k * K k j) + ∑ k : Fin 512, r k * R k j) + b j

/-- The new cell row from the pre-activations and the carried cell row. -/
def cellOf (z : Fin 2048 → EReal) (c : Fin 512 → EReal) (s : Fin 512) : EReal :=
  Ideal.logistic (z (gcol 512 (by decide) s)) * c s
    + Ideal.logistic (z (gcol 0 (by decide) s)) * Ideal.tanh (z (gcol 1024 (by decide) s))

/-- The emitted row from the pre-activations and the new cell row. -/
def emitOf (z : Fin 2048 → EReal) (cNew : Fin 512 → EReal) (s : Fin 512) : EReal :=
  Ideal.logistic (z (gcol 1536 (by decide) s)) * Ideal.tanh (cNew s)

section Row

/- One batch row's data: the input row, per layer the recurrent-state row `rec l` and the carried cell row
   `car l`, the kernels `K l`, `R l` and the bias `b l`. -/
variable (x : Fin 512 → EReal) (rec car : Fin 2 → Fin 512 → EReal)
  (K R : Fin 2 → Fin 512 → Fin 2048 → EReal) (b : Fin 2 → Fin 2048 → EReal)

/-- First layer: pre-activations, new cell row, emitted row. -/
def z0 : Fin 2048 → EReal := preact x (rec 0) (K 0) (R 0) (b 0)
def c0 : Fin 512 → EReal := cellOf (z0 x rec K R b) (car 0)
def e0 : Fin 512 → EReal := emitOf (z0 x rec K R b) (c0 x rec car K R b)
/-- Second layer, fed the first layer's new cell row. -/
def z1 : Fin 2048 → EReal := preact (c0 x rec car K R b) (rec 1) (K 1) (R 1) (b 1)
def c1 : Fin 512 → EReal := cellOf (z1 x rec car K R b) (car 1)
def e1 : Fin 512 → EReal := emitOf (z1 x rec car K R b) (c1 x rec car K R b)

/-- The row's four result rows: layer `l`, then emitted (`0`) or new cell (`1`). -/
def stacked (l j : Nat) : Fin 512 → EReal :=
  if l = 0 then (if j = 0 then e0 x rec car K R b else c0 x rec car K R b)
  else (if j = 0 then e1 x rec car K R b else c1 x rec car K R b)

end Row

/-- The whole result array as one function of the six argument arrays: row `i 2` of the batch is computed from row
    `i 2` of the input and of the two state arrays, and from the whole kernels and biases. -/
def result (X : (⟨2, ![16384, 512]⟩ : Shape).Idx → EReal) (S0 S1 : (⟨3, ![2, 16384, 512]⟩ : Shape).Idx → EReal)
    (K R : (⟨3, ![2, 512, 2048]⟩ : Shape).Idx → EReal) (B : (⟨2, ![2, 2048]⟩ : Shape).Idx → EReal) :
    (⟨4, ![2, 2, 16384, 512]⟩ : Shape).Idx → EReal := fun i =>
  stacked (fun k => X (ix2 (i 2) k)) (fun l k => S0 (ix3 l (i 2) k)) (fun l k => S1 (ix3 l (i 2) k))
    (fun l k j => K (ix3 l k j)) (fun l k j => R (ix3 l k j)) (fun l j => B (ix2 l j)) (i 0).val (i 1).val (i 3)

/-- The same for one block of 512 batch rows held in the staging buffers. -/
def blockResult (X : (⟨2, ![512, 512]⟩ : Shape).Idx → EReal) (S0 S1 : (⟨3, ![2, 512, 512]⟩ : Shape).Idx → EReal)
    (K R : (⟨3, ![2, 512, 2048]⟩ : Shape).Idx → EReal) (B : (⟨2, ![2, 2048]⟩ : Shape).Idx → EReal) :
    (⟨4, ![2, 2, 512, 512]⟩ : Shape).Idx → EReal := fun i =>
  stacked (fun k => X (ix2 (i 2) k)) (fun l k => S0 (ix3 l (i 2) k)) (fun l k => S1 (ix3 l (i 2) k))
    (fun l k j => K (ix3 l k j)) (fun l k j => R (ix3 l k j)) (fun l j => B (ix2 l j)) (i 0).val (i 1).val (i 3)

end Cert.Lstm

end
-- ==== Proof.KerGates.lean ====
/-
  The gate pre-activations the kernel body computes, read at one entry.

  The body forms, per layer, `(x ⬝ K + r ⬝ R) + b` on a block of 512 batch rows: two matrix products into zero
  accumulators (the narrowing of their operands is the identity on the extended reals), their sum, and the bias row
  spread over the block's rows. At row `p`, column `j` this is `Lstm.preact` of row `p` of the two left operands,
  the two kernels and the bias row.
-/
import proofs.«121197_j76012331204660_1_alg».proof.Proof.Gen.KernelIdeal.Skeleton
import proofs.«121197_j76012331204660_1_alg».proof.Proof.Cell
import Idealize.ShloMosaic.Lib.ValueIdx
import Idealize.ShloMosaic.Lib.Pipeline.Value
import Idealize.ShloMosaic.PureOps.Ideal.Laws

noncomputable section

open scoped BigOperators

namespace Cert.Lstm.Ker

open Cert.KernelIdeal Cert.KernelIdeal.Gen Idealize.ShloMosaic Idealize.ShloMosaic.ValueIdx

/-! ## One matrix product at an entry -/

theorem lhs_axis0 (i : S512x2048.Idx) (q : dot_S512x512_S512x2048_S512x2048_1_0_0_1_n_n.contr.Idx) :
    (dot_S512x512_S512x2048_S512x2048_1_0_0_1_n_n.lhsIdx i q 0).val = (i 0).val := by
  unfold DotDims.lhsIdx
  rw [dif_neg (show ¬(0 : Fin S512x512.rank) ∈ dot_S512x512_S512x2048_S512x2048_1_0_0_1_n_n.lhsBatch by decide), dif_pos (show (0 : Fin S512x512.rank) ∈ dot_S512x512_S512x2048_S512x2048_1_0_0_1_n_n.lhsNonContracting by decide)]
  rfl
theorem lhs_axis1 (i : S512x2048.Idx) (q : dot_S512x512_S512x2048_S512x2048_1_0_0_1_n_n.contr.Idx) :
    (dot_S512x512_S512x2048_S512x2048_1_0_0_1_n_n.lhsIdx i q 1).val = (q ⟨0, by decide⟩).val :=
  dot_S512x512_S512x2048_S512x2048_1_0_0_1_n_n.lhsIdx_val_of_single rfl i q
theorem rhs_axis0 (i : S512x2048.Idx) (q : dot_S512x512_S512x2048_S512x2048_1_0_0_1_n_n.contr.Idx) :
    (dot_S512x512_S512x2048_S512x2048_1_0_0_1_n_n.rhsIdx i q 0).val = (q ⟨0, by decide⟩).val :=
  dot_S512x512_S512x2048_S512x2048_1_0_0_1_n_n.rhsIdx_val_of_single rfl i q
theorem rhs_axis1 (i : S512x2048.Idx) (q : dot_S512x512_S512x2048_S512x2048_1_0_0_1_n_n.contr.Idx) :
    (dot_S512x512_S512x2048_S512x2048_1_0_0_1_n_n.rhsIdx i q 1).val = (i 1).val := by
  unfold DotDims.rhsIdx
  rw [dif_neg (show ¬(1 : Fin S512x2048.rank) ∈ dot_S512x512_S512x2048_S512x2048_1_0_0_1_n_n.rhsBatch by decide), dif_pos (show (1 : Fin S512x2048.rank) ∈ dot_S512x512_S512x2048_S512x2048_1_0_0_1_n_n.rhsNonContracting by decide)]
  rfl

/-- A product of a [512, 512] block with a [512, 2048] kernel into the zero accumulator, at row `p` and column `j`,
    is the sum over the 512 contracted positions. -/
theorem product_apply {φ₁ φ₂ : FTy} (l : FVec Ideal S512x512 φ₁) (r : FVec Ideal S512x2048 φ₂) (p : Fin 512) (j : Fin 2048) :
    matmul dot_S512x512_S512x2048_S512x2048_1_0_0_1_n_n none l r (constant S512x2048 .f32 0x00000000#32) (ix2 p j)
      = ∑ k : Fin 512, l (ix2 p k) * r (ix2 k j) := by
  show FloatOps.matmul dot_S512x512_S512x2048_S512x2048_1_0_0_1_n_n none l r (constant S512x2048 .f32 0x00000000#32) (ix2 p j) = _
  rw [Ideal.matmul_constant_zero_apply, ← Equiv.sum_comp (ValueIdx.contrEquiv1 dot_S512x512_S512x2048_S512x2048_1_0_0_1_n_n 512 rfl rfl).symm]
  refine Finset.sum_congr rfl fun k _ => ?_
  have hk := ValueIdx.contrEquiv1_symm_val dot_S512x512_S512x2048_S512x2048_1_0_0_1_n_n 512 rfl rfl k
  have el : dot_S512x512_S512x2048_S512x2048_1_0_0_1_n_n.lhsIdx (ix2 p j) ((ValueIdx.contrEquiv1 dot_S512x512_S512x2048_S512x2048_1_0_0_1_n_n 512 rfl rfl).symm k) = ix2 p k := funext fun a => Fin.ext (by
    match a with
    | ⟨0, _⟩ => exact lhs_axis0 _ _
    | ⟨1, _⟩ => exact (lhs_axis1 _ _).trans hk)
  have er : dot_S512x512_S512x2048_S512x2048_1_0_0_1_n_n.rhsIdx (ix2 p j) ((ValueIdx.contrEquiv1 dot_S512x512_S512x2048_S512x2048_1_0_0_1_n_n 512 rfl rfl).symm k) = ix2 k j := funext fun a => Fin.ext (by
    match a with
    | ⟨0, _⟩ => exact (rhs_axis0 _ _).trans hk
    | ⟨1, _⟩ => exact rhs_axis1 _ _)
  rw [el, er]

/-! ## The layout steps around the products -/

/-- A [1, a, b] value viewed as [a, b]: entry (p, q) is entry (0, p, q). -/
theorem dropLead_apply {α : Type} {a b : Nat} (v : (⟨3, ![1, a, b]⟩ : Shape).Idx → α)
    (h : (⟨3, ![1, a, b]⟩ : Shape).ShapeCasts ⟨2, ![a, b]⟩) (p : Fin a) (q : Fin b) :
    shapeCast ⟨2, ![a, b]⟩ v h (ix2 p q) = v (ix3 (0 : Fin 1) p q) := by
  refine (shapeCast_dropUnit_apply ![a, b] v h (ix2 p q)).trans (congrArg v ?_)
  funext d; match d with | ⟨0, _⟩ => rfl | ⟨1, _⟩ => rfl | ⟨2, _⟩ => rfl

/-- The bias row, flattened, restored to one row and spread over the block's rows: entry (p, j) is the row's entry j. -/
theorem biasRow_apply (v : Vec Ideal S1x2048 .f32) (p : Fin 512) (j : Fin 2048) :
    broadcastTo S512x2048 (shapeCast S1x2048 (shapeCast S2048 v shapeCasts_S1x2048_S2048) shapeCasts_S2048_S1x2048)
      broadcasts_S1x2048_S512x2048 (ix2 p j) = v (ix2 (0 : Fin 1) j) := by
  rw [shapeCast_shapeCast]
  exact broadcastTo_apply v broadcasts_S1x2048_S512x2048 (ix2 p j) (ix2 (0 : Fin 1) j)
    (fun a => match a with | ⟨0, _⟩ => rfl | ⟨1, _⟩ => rfl)

/-! ## The pre-activations of the two layers -/

/-- First layer: the pre-activation block at row `p`, column `j`. -/
theorem gates0_apply (v0 : Vec Ideal S512x512 .f32) (v1 : Vec Ideal S1x512x512 .f32) (v7 v9 : Vec Ideal S1x512x2048 .bf16)
    (v14 : Vec Ideal S1x2048 .f32) (p : Fin 512) (j : Fin 2048) :
    k0_pay3 v0 v1 v7 v9 v14 (ix2 p j)
      = Lstm.preact (fun k => v0 (ix2 p k)) (fun k => v1 (ix3 (0 : Fin 1) p k)) (fun k j => v7 (ix3 (0 : Fin 1) k j))
          (fun k j => v9 (ix3 (0 : Fin 1) k j)) (fun j => v14 (ix2 (0 : Fin 1) j)) j := by
  show (matmul (F := Ideal) dot_S512x512_S512x2048_S512x2048_1_0_0_1_n_n none (truncf (F := Ideal) .bf16 v0 bitsLt_bf16_f32)
          (shapeCast S512x2048 v7 shapeCasts_S1x512x2048_S512x2048) (constant (F := Ideal) S512x2048 .f32 0x00000000#32) (ix2 p j)
        + matmul (F := Ideal) dot_S512x512_S512x2048_S512x2048_1_0_0_1_n_n none
          (truncf (F := Ideal) .bf16 (shapeCast S512x512 v1 shapeCasts_S1x512x512_S512x512) bitsLt_bf16_f32)
          (shapeCast S512x2048 v9 shapeCasts_S1x512x2048_S512x2048) (constant (F := Ideal) S512x2048 .f32 0x00000000#32) (ix2 p j))
      + broadcastTo S512x2048 (shapeCast S1x2048 (shapeCast S2048 v14 shapeCasts_S1x2048_S2048) shapeCasts_S2048_S1x2048)
          broadcasts_S1x2048_S512x2048 (ix2 p j) = _
  rw [product_apply, product_apply, biasRow_apply]
  unfold Lstm.preact
  simp only [truncf_apply, dropLead_apply]

/-- Second layer: the same with the first layer's new cell block as the left operand. -/
theorem gates1_apply (v28 : FVec Ideal S512x512 .f32) (v38 : Vec Ideal S1x512x512 .f32) (v44 v46 : Vec Ideal S1x512x2048 .bf16)
    (v51 : Vec Ideal S1x2048 .f32) (p : Fin 512) (j : Fin 2048) :
    k0_pay7 v28 v38 v44 v46 v51 (ix2 p j)
      = Lstm.preact (fun k => v28 (ix2 p k)) (fun k => v38 (ix3 (0 : Fin 1) p k)) (fun k j => v44 (ix3 (0 : Fin 1) k j))
          (fun k j => v46 (ix3 (0 : Fin 1) k j)) (fun j => v51 (ix2 (0 : Fin 1) j)) j := by
  show (matmul (F := Ideal) dot_S512x512_S512x2048_S512x2048_1_0_0_1_n_n none (truncf (F := Ideal) .bf16 v28 bitsLt_bf16_f32)
          (shapeCast S512x2048 v44 shapeCasts_S1x512x2048_S512x2048) (constant (F := Ideal) S512x2048 .f32 0x00000000#32) (ix2 p j)
        + matmul (F := Ideal) dot_S512x512_S512x2048_S512x2048_1_0_0_1_n_n none
          (truncf (F := Ideal) .bf16 (shapeCast S512x512 v38 shapeCasts_S1x512x512_S512x512) bitsLt_bf16_f32)
          (shapeCast S512x2048 v46 shapeCasts_S1x512x2048_S512x2048) (constant (F := Ideal) S512x2048 .f32 0x00000000#32) (ix2 p j))
      + broadcastTo S512x2048 (shapeCast S1x2048 (shapeCast S2048 v51 shapeCasts_S1x2048_S2048) shapeCasts_S2048_S1x2048)
          broadcasts_S1x2048_S512x2048 (ix2 p j) = _
  rw [product_apply, product_apply, biasRow_apply]
  unfold Lstm.preact
  simp only [truncf_apply, dropLead_apply]

end Cert.Lstm.Ker

end
-- ==== Proof.KerCell.lean ====
/-
  The new cell block and the emitted block the kernel body computes, read at one entry.

  From a pre-activation block `z` (512 rows, 2048 gate columns) and the carried cell block `c`, the body cuts the
  four gates' columns out of `z` and forms `σ(forget) · c + σ(input) · tanh(candidate)`, then `σ(output) · tanh` of
  that. At row `p`, hidden unit `s` these are `Lstm.cellOf` and `Lstm.emitOf` of row `p`. The stored pieces are
  the two blocks viewed with two leading unit axes.
-/
import proofs.«121197_j76012331204660_1_alg».proof.Proof.KerGates

noncomputable section

open scoped BigOperators

namespace Cert.Lstm.Ker

open Cert.KernelIdeal Cert.KernelIdeal.Gen Idealize.ShloMosaic Idealize.ShloMosaic.ValueIdx

/-- One gate's 512 columns cut out of the pre-activation block: entry (p, s) is column `o + s` of row p. -/
theorem gateSlice_apply (o : Nat) (ho : o + 512 ≤ 2048) (z : FVec Ideal S512x2048 .f32)
    (h : S512x2048.Slices ![0, o] S512x512) (p s : Fin 512) :
    extractStridedSlice S512x512 ![0, o] z h (ix2 p s) = z (ix2 p (Lstm.gcol o ho s)) :=
  extractStridedSlice_apply ![0, o] z h (ix2 p s) (ix2 p (Lstm.gcol o ho s))
    (fun a => match a with
      | ⟨0, _⟩ => by show p.val = 0 + p.val; omega
      | ⟨1, _⟩ => rfl)

/-- The new cell block of a layer at row `p`, hidden unit `s`. -/
theorem cellBlock_apply (z : FVec Ideal S512x2048 .f32) (c : FVec Ideal S512x512 .f32) (p s : Fin 512) :
    addf (mulf (logistic (extractStridedSlice S512x512 ![0, 512] z slices_S512x2048_o0_512_S512x512)) c)
        (mulf (logistic (extractStridedSlice S512x512 ![0, 0] z slices_S512x2048_o0_0_S512x512))
          (tanh (extractStridedSlice S512x512 ![0, 1024] z slices_S512x2048_o0_1024_S512x512))) (ix2 p s)
      = Lstm.cellOf (fun j => z (ix2 p j)) (fun s => c (ix2 p s)) s := by
  show Ideal.logistic (extractStridedSlice S512x512 ![0, 512] z slices_S512x2048_o0_512_S512x512 (ix2 p s)) * c (ix2 p s)
      + Ideal.logistic (extractStridedSlice S512x512 ![0, 0] z slices_S512x2048_o0_0_S512x512 (ix2 p s))
        * Ideal.tanh (extractStridedSlice S512x512 ![0, 1024] z slices_S512x2048_o0_1024_S512x512 (ix2 p s)) = _
  rw [gateSlice_apply 512 (by decide), gateSlice_apply 0 (by decide), gateSlice_apply 1024 (by decide)]
  rfl

/-- The emitted block of a layer at row `p`, hidden unit `s`. -/
theorem emitBlock_apply (z : FVec Ideal S512x2048 .f32) (cNew : FVec Ideal S512x512 .f32) (p s : Fin 512) :
    mulf (logistic (extractStridedSlice S512x512 ![0, 1536] z slices_S512x2048_o0_1536_S512x512)) (tanh cNew) (ix2 p s)
      = Lstm.emitOf (fun j => z (ix2 p j)) (fun s => cNew (ix2 p s)) s := by
  show Ideal.logistic (extractStridedSlice S512x512 ![0, 1536] z slices_S512x2048_o0_1536_S512x512 (ix2 p s))
      * Ideal.tanh (cNew (ix2 p s)) = _
  rw [gateSlice_apply 1536 (by decide)]
  rfl

/-- A [512, 512] block viewed with two leading unit axes: entry (a, b, p, s) is entry (p, s). -/
theorem addLead2_apply {α : Type} (v : S512x512.Idx → α) (h : S512x512.ShapeCasts S1x1x512x512) (a b : Fin 1) (p s : Fin 512) :
    shapeCast S1x1x512x512 v h (ix4 a b p s) = v (ix2 p s) :=
  shapeCast_apply v h (ix4 a b p s) (ix2 p s) (by
    rw [Shape.rowMajor_val_two, Shape.rowMajor_val_four]
    show p.val * 512 + s.val = ((a.val * 1 + b.val) * 512 + p.val) * 512 + s.val
    have := a.isLt; have := b.isLt; omega)

/-! ## The body's payloads -/

/-- First layer's new cell block. -/
theorem cell0_apply (v0 : Vec Ideal S512x512 .f32) (v1 v3 : Vec Ideal S1x512x512 .f32) (v7 v9 : Vec Ideal S1x512x2048 .bf16)
    (v14 : Vec Ideal S1x2048 .f32) (p s : Fin 512) :
    k0_pay4 v0 v1 v3 v7 v9 v14 (ix2 p s)
      = Lstm.cellOf (fun j => k0_pay3 v0 v1 v7 v9 v14 (ix2 p j)) (fun s => v3 (ix3 (0 : Fin 1) p s)) s := by
  refine (cellBlock_apply (k0_pay3 v0 v1 v7 v9 v14) (shapeCast S512x512 v3 shapeCasts_S1x512x512_S512x512) p s).trans ?_
  simp only [dropLead_apply]

/-- First layer's emitted block, as stored. -/
theorem emit0_apply (v0 : Vec Ideal S512x512 .f32) (v1 v3 : Vec Ideal S1x512x512 .f32) (v7 v9 : Vec Ideal S1x512x2048 .bf16)
    (v14 : Vec Ideal S1x2048 .f32) (a b : Fin 1) (p s : Fin 512) :
    k0_pay5 v0 v1 v3 v7 v9 v14 (ix4 a b p s)
      = Lstm.emitOf (fun j => k0_pay3 v0 v1 v7 v9 v14 (ix2 p j)) (fun s => k0_pay4 v0 v1 v3 v7 v9 v14 (ix2 p s)) s := by
  show shapeCast S1x1x512x512 (mulf (logistic (extractStridedSlice S512x512 ![0, 1536] (k0_pay3 v0 v1 v7 v9 v14)
      slices_S512x2048_o0_1536_S512x512)) (tanh (k0_pay4 v0 v1 v3 v7 v9 v14))) shapeCasts_S512x512_S1x1x512x512 (ix4 a b p s) = _
  rw [addLead2_apply]
  exact emitBlock_apply (k0_pay3 v0 v1 v7 v9 v14) (k0_pay4 v0 v1 v3 v7 v9 v14) p s

/-- Second layer's new cell block. -/
theorem cell1_apply (v28 : FVec Ideal S512x512 .f32) (v38 v40 : Vec Ideal S1x512x512 .f32) (v44 v46 : Vec Ideal S1x512x2048 .bf16)
    (v51 : Vec Ideal S1x2048 .f32) (p s : Fin 512) :
    k0_pay8 v28 v38 v40 v44 v46 v51 (ix2 p s)
      = Lstm.cellOf (fun j => k0_pay7 v28 v38 v44 v46 v51 (ix2 p j)) (fun s => v40 (ix3 (0 : Fin 1) p s)) s := by
  refine (cellBlock_apply (k0_pay7 v28 v38 v44 v46 v51) (shapeCast S512x512 v40 shapeCasts_S1x512x512_S512x512) p s).trans ?_
  simp only [dropLead_apply]

/-- Second layer's emitted block. -/
theorem emit1_apply (v28 : FVec Ideal S512x512 .f32) (v38 v40 : Vec Ideal S1x512x512 .f32) (v44 v46 : Vec Ideal S1x512x2048 .bf16)
    (v51 : Vec Ideal S1x2048 .f32) (p s : Fin 512) :
    k0_pay9 v28 v38 v40 v44 v46 v51 (ix2 p s)
      = Lstm.emitOf (fun j => k0_pay7 v28 v38 v44 v46 v51 (ix2 p j)) (fun s => k0_pay8 v28 v38 v40 v44 v46 v51 (ix2 p s)) s :=
  emitBlock_apply (k0_pay7 v28 v38 v44 v46 v51) (k0_pay8 v28 v38 v40 v44 v46 v51) p s

/-- The three pieces stored as they are: a computed block viewed with two leading unit axes. -/
theorem storedCell0_apply (v28 : FVec Ideal S512x512 .f32) (a b : Fin 1) (p s : Fin 512) :
    k0_pay6 v28 (ix4 a b p s) = v28 (ix2 p s) :=
  addLead2_apply v28 shapeCasts_S512x512_S1x1x512x512 a b p s
theorem storedEmit1_apply (v68 : FVec Ideal S512x512 .f32) (a b : Fin 1) (p s : Fin 512) :
    k0_pay1 v68 (ix4 a b p s) = v68 (ix2 p s) :=
  addLead2_apply v68 shapeCasts_S512x512_S1x1x512x512 a b p s
theorem storedCell1_apply (v65 : FVec Ideal S512x512 .f32) (a b : Fin 1) (p s : Fin 512) :
    k0_pay2 v65 (ix4 a b p s) = v65 (ix2 p s) :=
  addLead2_apply v65 shapeCasts_S512x512_S1x1x512x512 a b p s

end Cert.Lstm.Ker

end
-- ==== Proof.KerBlock.lean ====
/-
  What the kernel body leaves in the output staging buffer, as one function of the six input blocks.

  The body reads the first-layer slices (index 0 on the layer axis) and the second-layer slices (index 1) of the
  state, kernel and bias blocks, and stores four [512, 512] pieces: (0, 0) the first layer's emitted block, (0, 1) its
  new cell block, (1, 0) the second layer's emitted block, (1, 1) its new cell block, the second layer being fed the
  first layer's new cell block. Row by row that is `Lstm.blockResult` of the six blocks.
-/
import proofs.«121197_j76012331204660_1_alg».proof.Proof.Gen.KernelIdeal.Frame
import proofs.«121197_j76012331204660_1_alg».proof.Proof.KerCell

noncomputable section

open scoped BigOperators

namespace Cert.Lstm.Ker

open Cert.KernelIdeal Cert.KernelIdeal.Gen Idealize.ShloMosaic Idealize.ShloMosaic.ValueIdx

/-! ## The loads: which entry of a block each rectangle's entry is -/

theorem idx_whole (p k : Fin 512) : r0_0.idx (ix2 p k) = ix2 p k :=
  (funext fun a => Fin.ext (by
    match a with
    | ⟨0, _⟩ => show 0 + 1 * p.val = p.val; omega
    | ⟨1, _⟩ => show 0 + 1 * k.val = k.val; omega))

theorem idx_state0 (p k : Fin 512) :
    r0_1.idx (ix3 (0 : Fin 1) p k) = ix3 (0 : Fin 2) p k :=
  (funext fun a => Fin.ext (by
    match a with
    | ⟨0, _⟩ => rfl
    | ⟨1, _⟩ => show 0 + 1 * p.val = p.val; omega
    | ⟨2, _⟩ => show 0 + 1 * k.val = k.val; omega))

theorem idx_state1 (p k : Fin 512) :
    r0_6.idx (ix3 (0 : Fin 1) p k) = ix3 (1 : Fin 2) p k :=
  (funext fun a => Fin.ext (by
    match a with
    | ⟨0, _⟩ => rfl
    | ⟨1, _⟩ => show 0 + 1 * p.val = p.val; omega
    | ⟨2, _⟩ => show 0 + 1 * k.val = k.val; omega))

theorem idx_kernel0 (k : Fin 512) (j : Fin 2048) :
    r0_2.idx (ix3 (0 : Fin 1) k j) = ix3 (0 : Fin 2) k j :=
  (funext fun a => Fin.ext (by
    match a with
    | ⟨0, _⟩ => rfl
    | ⟨1, _⟩ => show 0 + 1 * k.val = k.val; omega
    | ⟨2, _⟩ => show 0 + 1 * j.val = j.val; omega))

theorem idx_kernel1 (k : Fin 512) (j : Fin 2048) :
    r0_7.idx (ix3 (0 : Fin 1) k j) = ix3 (1 : Fin 2) k j :=
  (funext fun a => Fin.ext (by
    match a with
    | ⟨0, _⟩ => rfl
    | ⟨1, _⟩ => show 0 + 1 * k.val = k.val; omega
    | ⟨2, _⟩ => show 0 + 1 * j.val = j.val; omega))

theorem idx_bias0 (j : Fin 2048) :
    r0_3.idx (ix2 (0 : Fin 1) j) = ix2 (0 : Fin 2) j :=
  (funext fun a => Fin.ext (by
    match a with
    | ⟨0, _⟩ => rfl
    | ⟨1, _⟩ => show 0 + 1 * j.val = j.val; omega))

theorem idx_bias1 (j : Fin 2048) :
    r0_8.idx (ix2 (0 : Fin 1) j) = ix2 (1 : Fin 2) j :=
  (funext fun a => Fin.ext (by
    match a with
    | ⟨0, _⟩ => rfl
    | ⟨1, _⟩ => show 0 + 1 * j.val = j.val; omega))

/-! ## Where each stored piece lands in the output block -/

theorem emb_piece (l j : Fin 2) (inb : ∀ a, (![l.val, j.val, 0, 0] : Fin 4 → Nat) a + S1x1x512x512.size a ≤ S2x2x512x512.size a)
    (a b : Fin 1) (p s : Fin 512) :
    (Rect.unit (s := S2x2x512x512) ![l.val, j.val, 0, 0] S1x1x512x512.size inb).emb (ix4 a b p s) = ix4 l j p s :=
  funext fun d => Fin.ext (by
    match d with
    | ⟨0, _⟩ => show l.val + 1 * a.val = l.val; have := a.isLt; omega
    | ⟨1, _⟩ => show j.val + 1 * b.val = j.val; have := b.isLt; omega
    | ⟨2, _⟩ => show 0 + 1 * p.val = p.val; omega
    | ⟨3, _⟩ => show 0 + 1 * s.val = s.val; omega)

section Block

variable (x0 : Vec Ideal S512x512 .f32) (x1 x2 : Vec Ideal S2x512x512 .f32) (x3 x4 : Vec Ideal S2x512x2048 .bf16)
  (x5 : Vec Ideal S2x2048 .f32)

/-! ## The four computed blocks, row by row -/

theorem blk_z0 (p : Fin 512) (j : Fin 2048) :
    k0_pay3 (View.ld x0 r0_0) (View.ld x1 r0_1) (View.ld x3 r0_2) (View.ld x4 r0_2) (View.ld x5 r0_3) (ix2 p j)
      = Lstm.z0 (fun k => x0 (ix2 p k)) (fun l k => x1 (ix3 l p k)) (fun l k j => x3 (ix3 l k j))
          (fun l k j => x4 (ix3 l k j)) (fun l j => x5 (ix2 l j)) j := by
  rw [gates0_apply]
  unfold Lstm.z0
  simp only [View.ld, idx_whole, idx_state0, idx_kernel0, idx_bias0]

theorem blk_c0 (p s : Fin 512) :
    k0_pay4 (View.ld x0 r0_0) (View.ld x1 r0_1) (View.ld x2 r0_1) (View.ld x3 r0_2) (View.ld x4 r0_2) (View.ld x5 r0_3) (ix2 p s)
      = Lstm.c0 (fun k => x0 (ix2 p k)) (fun l k => x1 (ix3 l p k)) (fun l k => x2 (ix3 l p k)) (fun l k j => x3 (ix3 l k j))
          (fun l k j => x4 (ix3 l k j)) (fun l j => x5 (ix2 l j)) s := by
  rw [cell0_apply]
  unfold Lstm.c0
  simp only [blk_z0, View.ld, idx_state0]

theorem blk_e0 (a b : Fin 1) (p s : Fin 512) :
    k0_pay5 (View.ld x0 r0_0) (View.ld x1 r0_1) (View.ld x2 r0_1) (View.ld x3 r0_2) (View.ld x4 r0_2) (View.ld x5 r0_3) (ix4 a b p s)
      = Lstm.e0 (fun k => x0 (ix2 p k)) (fun l k => x1 (ix3 l p k)) (fun l k => x2 (ix3 l p k)) (fun l k j => x3 (ix3 l k j))
          (fun l k j => x4 (ix3 l k j)) (fun l j => x5 (ix2 l j)) s := by
  rw [emit0_apply]
  unfold Lstm.e0
  simp only [blk_z0, blk_c0]

theorem blk_z1 (p : Fin 512) (j : Fin 2048) :
    k0_pay7 (k0_pay4 (View.ld x0 r0_0) (View.ld x1 r0_1) (View.ld x2 r0_1) (View.ld x3 r0_2) (View.ld x4 r0_2) (View.ld x5 r0_3))
        (View.ld x1 r0_6) (View.ld x3 r0_7) (View.ld x4 r0_7) (View.ld x5 r0_8) (ix2 p j)
      = Lstm.z1 (fun k => x0 (ix2 p k)) (fun l k => x1 (ix3 l p k)) (fun l k => x2 (ix3 l p k)) (fun l k j => x3 (ix3 l k j))
          (fun l k j => x4 (ix3 l k j)) (fun l j => x5 (ix2 l j)) j := by
  rw [gates1_apply]
  unfold Lstm.z1
  simp only [blk_c0, View.ld, idx_state1, idx_kernel1, idx_bias1]

theorem blk_c1 (p s : Fin 512) :
    k0_pay8 (k0_pay4 (View.ld x0 r0_0) (View.ld x1 r0_1) (View.ld x2 r0_1) (View.ld x3 r0_2) (View.ld x4 r0_2) (View.ld x5 r0_3))
        (View.ld x1 r0_6) (View.ld x2 r0_6) (View.ld x3 r0_7) (View.ld x4 r0_7) (View.ld x5 r0_8) (ix2 p s)
      = Lstm.c1 (fun k => x0 (ix2 p k)) (fun l k => x1 (ix3 l p k)) (fun l k => x2 (ix3 l p k)) (fun l k j => x3 (ix3 l k j))
          (fun l k j => x4 (ix3 l k j)) (fun l j => x5 (ix2 l j)) s := by
  rw [cell1_apply]
  unfold Lstm.c1
  simp only [blk_z1, View.ld, idx_state1]

theorem blk_e1 (p s : Fin 512) :
    k0_pay9 (k0_pay4 (View.ld x0 r0_0) (View.ld x1 r0_1) (View.ld x2 r0_1) (View.ld x3 r0_2) (View.ld x4 r0_2) (View.ld x5 r0_3))
        (View.ld x1 r0_6) (View.ld x2 r0_6) (View.ld x3 r0_7) (View.ld x4 r0_7) (View.ld x5 r0_8) (ix2 p s)
      = Lstm.e1 (fun k => x0 (ix2 p k)) (fun l k => x1 (ix3 l p k)) (fun l k => x2 (ix3 l p k)) (fun l k j => x3 (ix3 l k j))
          (fun l k j => x4 (ix3 l k j)) (fun l j => x5 (ix2 l j)) s := by
  rw [emit1_apply]
  unfold Lstm.e1
  simp only [blk_z1, blk_c1]

/-! ## Each stored piece is its tile of `Lstm.blockResult` -/

theorem piece_e0 (x : S1x1x512x512.Idx) :
    k0_pay5 (View.ld x0 r0_0) (View.ld x1 r0_1) (View.ld x2 r0_1) (View.ld x3 r0_2) (View.ld x4 r0_2) (View.ld x5 r0_3) x
      = Lstm.blockResult x0 x1 x2 x3 x4 x5 (r0_4.emb x) := by
  obtain ⟨a, b, p, s, rfl⟩ : ∃ (a b : Fin 1) (p s : Fin 512), x = ix4 a b p s := ⟨x 0, x 1, x 2, x 3, eq_ix4 x⟩
  rw [show r0_4.emb (ix4 a b p s) = ix4 (0 : Fin 2) (0 : Fin 2) p s from emb_piece 0 0 _ a b p s, blk_e0]
  rfl

theorem piece_c0 (x : S1x1x512x512.Idx) :
    k0_pay6 (k0_pay4 (View.ld x0 r0_0) (View.ld x1 r0_1) (View.ld x2 r0_1) (View.ld x3 r0_2) (View.ld x4 r0_2) (View.ld x5 r0_3)) x
      = Lstm.blockResult x0 x1 x2 x3 x4 x5 (r0_5.emb x) := by
  obtain ⟨a, b, p, s, rfl⟩ : ∃ (a b : Fin 1) (p s : Fin 512), x = ix4 a b p s := ⟨x 0, x 1, x 2, x 3, eq_ix4 x⟩
  rw [show r0_5.emb (ix4 a b p s) = ix4 (0 : Fin 2) (1 : Fin 2) p s from emb_piece 0 1 _ a b p s]
  rw [storedCell0_apply, blk_c0]
  rfl

theorem piece_e1 (x : S1x1x512x512.Idx) :
    k0_pay1 (k0_pay9 (k0_pay4 (View.ld x0 r0_0) (View.ld x1 r0_1) (View.ld x2 r0_1) (View.ld x3 r0_2) (View.ld x4 r0_2) (View.ld x5 r0_3))
        (View.ld x1 r0_6) (View.ld x2 r0_6) (View.ld x3 r0_7) (View.ld x4 r0_7) (View.ld x5 r0_8)) x
      = Lstm.blockResult x0 x1 x2 x3 x4 x5 (r0_9.emb x) := by
  obtain ⟨a, b, p, s, rfl⟩ : ∃ (a b : Fin 1) (p s : Fin 512), x = ix4 a b p s := ⟨x 0, x 1, x 2, x 3, eq_ix4 x⟩
  rw [show r0_9.emb (ix4 a b p s) = ix4 (1 : Fin 2) (0 : Fin 2) p s from emb_piece 1 0 _ a b p s]
  rw [storedEmit1_apply, blk_e1]
  rfl

theorem piece_c1 (x : S1x1x512x512.Idx) :
    k0_pay2 (k0_pay8 (k0_pay4 (View.ld x0 r0_0) (View.ld x1 r0_1) (View.ld x2 r0_1) (View.ld x3 r0_2) (View.ld x4 r0_2) (View.ld x5 r0_3))
        (View.ld x1 r0_6) (View.ld x2 r0_6) (View.ld x3 r0_7) (View.ld x4 r0_7) (View.ld x5 r0_8)) x
      = Lstm.blockResult x0 x1 x2 x3 x4 x5 (r0_10.emb x) := by
  obtain ⟨a, b, p, s, rfl⟩ : ∃ (a b : Fin 1) (p s : Fin 512), x = ix4 a b p s := ⟨x 0, x 1, x 2, x 3, eq_ix4 x⟩
  rw [show r0_10.emb (ix4 a b p s) = ix4 (1 : Fin 2) (1 : Fin 2) p s from emb_piece 1 1 _ a b p s]
  rw [storedCell1_apply, blk_c1]
  rfl

/-- The output staging buffer after the body is `Lstm.blockResult` of the six input blocks. -/
theorem out_eq_blockResult : out0_6 x0 x1 x2 x3 x4 x5 = Lstm.blockResult x0 x1 x2 x3 x4 x5 := by
  funext y
  unfold out0_6
  refine View.canon_apply_of_pieces (Val := Elt Ideal) (S := S2x2x512x512) (e := .f32) (Lstm.blockResult x0 x1 x2 x3 x4 x5) _ ?_ y (cover0_6 _ _ _ _ y)
  intro pc hpc x
  simp only [List.mem_cons, List.not_mem_nil, or_false] at hpc
  rcases hpc with rfl | rfl | rfl | rfl
  · exact piece_c1 x0 x1 x2 x3 x4 x5 x
  · exact piece_e1 x0 x1 x2 x3 x4 x5 x
  · exact piece_c0 x0 x1 x2 x3 x4 x5 x
  · exact piece_e0 x0 x1 x2 x3 x4 x5 x

end Block

end Cert.Lstm.Ker

end
-- ==== Proof.KerArray.lean ====
/-
  From blocks to the whole result array.

  Grid point `t` works on batch rows `512 t … 512 t + 511`: its input blocks are those rows of the input and of the two
  state arrays, and the whole kernels and biases (narrowed by the host before the call, which is the identity on the
  extended reals); its output block is those rows of the result, for both layers and both stacked positions. Since a
  row of `Lstm.result` depends on the same row of the inputs only, what point `t` writes back is block `t` of
  `Lstm.result` of the argument arrays; the 32 blocks tile the result array, so the array ends holding it.
-/
import proofs.«121197_j76012331204660_1_alg».proof.Proof.Gen.KernelIdeal.Value
import proofs.«121197_j76012331204660_1_alg».proof.Proof.KerBlock
import Idealize.ShloMosaic.Lib.StableHlo.Run

noncomputable section

open scoped BigOperators

namespace Cert.Lstm.Ker

open Cert.KernelIdeal Cert.KernelIdeal.Gen Idealize.ShloMosaic Idealize.ShloMosaic.TcCoe Idealize.ShloMosaic.ValueIdx
open Idealize.SL.Sem Idealize.ShloMosaic.StableHlo
open Idealize.ShloMosaic.Pipeline (Dat)

variable (m : (ℓ : Loc nD τ sig) → Buf (Elt Ideal) ℓ) (ρ : Dev nD → PrngReg)

/-- The batch row that row `p` of grid point `t`'s blocks is. -/
def brow (t : Fin cfg0.N) (p : Fin 512) : Fin 16384 :=
  ⟨512 * t.val + p.val, by have ht : t.val < 32 := t.isLt; have := p.isLt; omega⟩

theorem brow_val (t : Fin cfg0.N) (p : Fin 512) : (brow t p).val = 512 * t.val + p.val := rfl

/-- The printed index maps, decided over the 32 grid points: the batch-tiled windows move along the batch axis with
    the point, the kernels and biases stay. -/
theorem idx_facts : ∀ t : Fin cfg0.N,
    win0_0.index t (0 : Fin 2) = t.val ∧ win0_0.index t (1 : Fin 2) = 0
    ∧ win0_1.index t (0 : Fin 3) = 0 ∧ win0_1.index t (1 : Fin 3) = t.val ∧ win0_1.index t (2 : Fin 3) = 0
    ∧ win0_2.index t (0 : Fin 3) = 0 ∧ win0_2.index t (1 : Fin 3) = t.val ∧ win0_2.index t (2 : Fin 3) = 0
    ∧ win0_3.index t (0 : Fin 3) = 0 ∧ win0_3.index t (1 : Fin 3) = 0 ∧ win0_3.index t (2 : Fin 3) = 0
    ∧ win0_4.index t (0 : Fin 3) = 0 ∧ win0_4.index t (1 : Fin 3) = 0 ∧ win0_4.index t (2 : Fin 3) = 0
    ∧ win0_5.index t (0 : Fin 2) = 0 ∧ win0_5.index t (1 : Fin 2) = 0
    ∧ win0_6.index t (0 : Fin 4) = 0 ∧ win0_6.index t (1 : Fin 4) = 0 ∧ win0_6.index t (2 : Fin 4) = t.val
    ∧ win0_6.index t (3 : Fin 4) = 0 :=
  (by decide +kernel : ∀ t : Fin grid0.N, _)

/-! ## The arrays as the region finds them, and each window's block read at an entry -/

abbrev arrX (c : Dev nD) : Vec Ideal S16384x512 .f32 := V m c main_arg0
abbrev arrRec (c : Dev nD) : Vec Ideal S2x16384x512 .f32 := V m c main_arg1
abbrev arrCar (c : Dev nD) : Vec Ideal S2x16384x512 .f32 := V m c main_arg2
abbrev arrK (c : Dev nD) : Vec Ideal S2x512x2048 .bf16 := V m c main_v0
abbrev arrR (c : Dev nD) : Vec Ideal S2x512x2048 .bf16 := V m c main_v1
abbrev arrB (c : Dev nD) : Vec Ideal S2x2048 .f32 := V m c main_arg5

theorem read_X (c : Dev nD) (t : Fin cfg0.N) (p k : Fin 512) :
    (iblk m c 0 t : Vec Ideal S512x512 .f32) (ix2 p k) = arrX m c (ix2 (brow t p) k) := by
  show V m c main_arg0 (((cfg0.win 0).blk t).view.emb (ix2 p k)) = V m c main_arg0 (ix2 (brow t p) k)
  have e : ((cfg0.win 0).blk t).view.emb (ix2 p k) = ix2 (brow t p) k := by
    obtain ⟨h0, h1, -⟩ := idx_facts t
    funext a; apply Fin.ext
    match a with
    | ⟨0, _⟩ => show win0_0.index t (0 : Fin 2) * 512 + 1 * p.val = 512 * t.val + p.val; rw [h0]; omega
    | ⟨1, _⟩ => show win0_0.index t (1 : Fin 2) * 512 + 1 * k.val = k.val; rw [h1]; omega
  rw [e]

theorem read_Rec (c : Dev nD) (t : Fin cfg0.N) (l : Fin 2) (p k : Fin 512) :
    (iblk m c 1 t : Vec Ideal S2x512x512 .f32) (ix3 l p k) = arrRec m c (ix3 l (brow t p) k) := by
  show V m c main_arg1 (((cfg0.win 1).blk t).view.emb (ix3 l p k)) = V m c main_arg1 (ix3 l (brow t p) k)
  have e : ((cfg0.win 1).blk t).view.emb (ix3 l p k) = ix3 l (brow t p) k := by
    obtain ⟨-, -, h0, h1, h2, -⟩ := idx_facts t
    funext a; apply Fin.ext
    match a with
    | ⟨0, _⟩ => show win0_1.index t (0 : Fin 3) * 2 + 1 * l.val = l.val; rw [h0]; omega
    | ⟨1, _⟩ => show win0_1.index t (1 : Fin 3) * 512 + 1 * p.val = 512 * t.val + p.val; rw [h1]; omega
    | ⟨2, _⟩ => show win0_1.index t (2 : Fin 3) * 512 + 1 * k.val = k.val; rw [h2]; omega
  rw [e]

theorem read_Car (c : Dev nD) (t : Fin cfg0.N) (l : Fin 2) (p k : Fin 512) :
    (iblk m c 2 t : Vec Ideal S2x512x512 .f32) (ix3 l p k) = arrCar m c (ix3 l (brow t p) k) := by
  show V m c main_arg2 (((cfg0.win 2).blk t).view.emb (ix3 l p k)) = V m c main_arg2 (ix3 l (brow t p) k)
  have e : ((cfg0.win 2).blk t).view.emb (ix3 l p k) = ix3 l (brow t p) k := by
    obtain ⟨-, -, -, -, -, h0, h1, h2, -⟩ := idx_facts t
    funext a; apply Fin.ext
    match a with
    | ⟨0, _⟩ => show win0_2.index t (0 : Fin 3) * 2 + 1 * l.val = l.val; rw [h0]; omega
    | ⟨1, _⟩ => show win0_2.index t (1 : Fin 3) * 512 + 1 * p.val = 512 * t.val + p.val; rw [h1]; omega
    | ⟨2, _⟩ => show win0_2.index t (2 : Fin 3) * 512 + 1 * k.val = k.val; rw [h2]; omega
  rw [e]

theorem read_K (c : Dev nD) (t : Fin cfg0.N) (l : Fin 2) (k : Fin 512) (j : Fin 2048) :
    (iblk m c 3 t : Vec Ideal S2x512x2048 .bf16) (ix3 l k j) = arrK m c (ix3 l k j) := by
  show V m c main_v0 (((cfg0.win 3).blk t).view.emb (ix3 l k j)) = V m c main_v0 (ix3 l k j)
  have e : ((cfg0.win 3).blk t).view.emb (ix3 l k j) = ix3 l k j := by
    obtain ⟨-, -, -, -, -, -, -, -, h0, h1, h2, -⟩ := idx_facts t
    funext a; apply Fin.ext
    match a with
    | ⟨0, _⟩ => show win0_3.index t (0 : Fin 3) * 2 + 1 * l.val = l.val; rw [h0]; omega
    | ⟨1, _⟩ => show win0_3.index t (1 : Fin 3) * 512 + 1 * k.val = k.val; rw [h1]; omega
    | ⟨2, _⟩ => show win0_3.index t (2 : Fin 3) * 2048 + 1 * j.val = j.val; rw [h2]; omega
  rw [e]

theorem read_R (c : Dev nD) (t : Fin cfg0.N) (l : Fin 2) (k : Fin 512) (j : Fin 2048) :
    (iblk m c 4 t : Vec Ideal S2x512x2048 .bf16) (ix3 l k j) = arrR m c (ix3 l k j) := by
  show V m c main_v1 (((cfg0.win 4).blk t).view.emb (ix3 l k j)) = V m c main_v1 (ix3 l k j)
  have e : ((cfg0.win 4).blk t).view.emb (ix3 l k j) = ix3 l k j := by
    obtain ⟨-, -, -, -, -, -, -, -, -, -, -, h0, h1, h2, -⟩ := idx_facts t
    funext a; apply Fin.ext
    match a with
    | ⟨0, _⟩ => show win0_4.index t (0 : Fin 3) * 2 + 1 * l.val = l.val; rw [h0]; omega
    | ⟨1, _⟩ => show win0_4.index t (1 : Fin 3) * 512 + 1 * k.val = k.val; rw [h1]; omega
    | ⟨2, _⟩ => show win0_4.index t (2 : Fin 3) * 2048 + 1 * j.val = j.val; rw [h2]; omega
  rw [e]

theorem read_B (c : Dev nD) (t : Fin cfg0.N) (l : Fin 2) (j : Fin 2048) :
    (iblk m c 5 t : Vec Ideal S2x2048 .f32) (ix2 l j) = arrB m c (ix2 l j) := by
  show V m c main_arg5 (((cfg0.win 5).blk t).view.emb (ix2 l j)) = V m c main_arg5 (ix2 l j)
  have e : ((cfg0.win 5).blk t).view.emb (ix2 l j) = ix2 l j := by
    obtain ⟨-, -, -, -, -, -, -, -, -, -, -, -, -, -, h0, h1, -⟩ := idx_facts t
    funext a; apply Fin.ext
    match a with
    | ⟨0, _⟩ => show win0_5.index t (0 : Fin 2) * 2 + 1 * l.val = l.val; rw [h0]; omega
    | ⟨1, _⟩ => show win0_5.index t (1 : Fin 2) * 2048 + 1 * j.val = j.val; rw [h1]; omega
  rw [e]

/-- Where entry (l, j, p, s) of point `t`'s output block lies in the result array. -/
theorem emb_out (t : Fin cfg0.N) (l j : Fin 2) (p s : Fin 512) :
    ((cfg0.win 6).blk t).view.emb (ix4 l j p s) = ix4 l j (brow t p) s := by
  obtain ⟨-, -, -, -, -, -, -, -, -, -, -, -, -, -, -, -, h0, h1, h2, h3⟩ := idx_facts t
  funext a; apply Fin.ext
  match a with
  | ⟨0, _⟩ => show win0_6.index t (0 : Fin 4) * 2 + 1 * l.val = l.val; rw [h0]; omega
  | ⟨1, _⟩ => show win0_6.index t (1 : Fin 4) * 2 + 1 * j.val = j.val; rw [h1]; omega
  | ⟨2, _⟩ => show win0_6.index t (2 : Fin 4) * 512 + 1 * p.val = 512 * t.val + p.val; rw [h2]; omega
  | ⟨3, _⟩ => show win0_6.index t (3 : Fin 4) * 512 + 1 * s.val = s.val; rw [h3]; omega

/-! ## What a point writes back, the cover, the final array -/

/-- `Lstm.result` of the arrays as the region finds them. -/
def regionResult (c : Dev nD) : Vec Ideal S2x2x16384x512 .f32 :=
  Lstm.result (arrX m c) (arrRec m c) (arrCar m c) (arrK m c) (arrR m c) (arrB m c)

theorem flushed_eq (c : Dev nD) (t : Fin cfg0.N) :
    (dats m 0 c).flushed 6 t = ((cfg0.win 6).blk t).view.read (Elt Ideal) (regionResult m c) := by
  rw [Cert.KernelIdeal.Value.flushed6, out_eq_blockResult]
  funext y
  obtain ⟨l, j, p, s, rfl⟩ : ∃ (l j : Fin 2) (p s : Fin 512), y = ix4 l j p s := ⟨y 0, y 1, y 2, y 3, eq_ix4 y⟩
  show Lstm.blockResult (iblk m c 0 t) (iblk m c 1 t) (iblk m c 2 t) (iblk m c 3 t) (iblk m c 4 t) (iblk m c 5 t) (ix4 l j p s)
    = regionResult m c (((cfg0.win 6).blk t).view.emb (ix4 l j p s))
  rw [emb_out t l j p s]
  show Lstm.stacked (fun k => (iblk m c 0 t : Vec Ideal S512x512 .f32) (ix2 p k))
      (fun l k => (iblk m c 1 t : Vec Ideal S2x512x512 .f32) (ix3 l p k))
      (fun l k => (iblk m c 2 t : Vec Ideal S2x512x512 .f32) (ix3 l p k))
      (fun l k j => (iblk m c 3 t : Vec Ideal S2x512x2048 .bf16) (ix3 l k j))
      (fun l k j => (iblk m c 4 t : Vec Ideal S2x512x2048 .bf16) (ix3 l k j))
      (fun l j => (iblk m c 5 t : Vec Ideal S2x2048 .f32) (ix2 l j)) l.val j.val s
    = Lstm.stacked (fun k => arrX m c (ix2 (brow t p) k)) (fun l k => arrRec m c (ix3 l (brow t p) k))
      (fun l k => arrCar m c (ix3 l (brow t p) k)) (fun l k j => arrK m c (ix3 l k j))
      (fun l k j => arrR m c (ix3 l k j)) (fun l j => arrB m c (ix2 l j)) l.val j.val s
  simp only [read_X, read_Rec, read_Car, read_K, read_R, read_B]

/-- An index of the result array is in point `t`'s block iff each coordinate is in the block's range on its axis. -/
theorem mem_blk (t : Fin cfg0.N) (i : S2x2x16384x512.Idx) :
    i ∈ ((cfg0.win 6).blk t).view.set ↔ ∀ a : Fin 4, win0_6.index t a * S2x2x512x512.size a ≤ (i a).val
      ∧ (i a).val < win0_6.index t a * S2x2x512x512.size a + S2x2x512x512.size a := by
  show i ∈ ((View.whole main_v2).slice (win0_6.rect t)).set ↔ _
  rw [View.set_slice_whole, Rect.mem_set_unit]
  exact Iff.rfl

/-- Every entry of the result array is in the block of the point its batch row belongs to. -/
theorem covered (i : S2x2x16384x512.Idx) :
    ∃ t : Fin cfg0.N, (cfg0.win 6).flush t = true ∧ i ∈ ((cfg0.win 6).blk t).view.set := by
  have b0 : (i 0).val < 2 := (i 0).isLt
  have b1 : (i 1).val < 2 := (i 1).isLt
  have b2 : (i 2).val < 16384 := (i 2).isLt
  have b3 : (i 3).val < 512 := (i 3).isLt
  let t : Fin cfg0.N := ⟨(i 2).val / 512, by show (i 2).val / 512 < 32; omega⟩
  have htv : t.val = (i 2).val / 512 := rfl
  obtain ⟨-, -, -, -, -, -, -, -, -, -, -, -, -, -, -, -, h0, h1, h2, h3⟩ := idx_facts t
  refine ⟨t, flush0_6 t, ?_⟩
  rw [mem_blk]
  intro a
  match a with
  | ⟨0, _⟩ => show win0_6.index t (0 : Fin 4) * 2 ≤ (i 0).val ∧ (i 0).val < win0_6.index t (0 : Fin 4) * 2 + 2; rw [h0]; omega
  | ⟨1, _⟩ => show win0_6.index t (1 : Fin 4) * 2 ≤ (i 1).val ∧ (i 1).val < win0_6.index t (1 : Fin 4) * 2 + 2; rw [h1]; omega
  | ⟨2, _⟩ => show win0_6.index t (2 : Fin 4) * 512 ≤ (i 2).val ∧ (i 2).val < win0_6.index t (2 : Fin 4) * 512 + 512; rw [h2, htv]; omega
  | ⟨3, _⟩ => show win0_6.index t (3 : Fin 4) * 512 ≤ (i 3).val ∧ (i 3).val < win0_6.index t (3 : Fin 4) * 512 + 512; rw [h3]; omega

/-- The result array after the run. -/
theorem final_region (c : Dev nD) : (dats m 0 c).arrAt 6 cfg0.N = regionResult m c :=
  (dats m 0 c).arrAt_eq_of_cover 6 (regionResult m c) (fun t _ => flushed_eq m c t) covered

/-! ## In terms of the argument arrays as launched -/

/-- The host narrows the kernels before the call; on the extended reals that changes nothing. -/
theorem arrK_eq (c : Dev nD) : arrK m c = (m ((c : Thread nD τ).loc main_arg3) : S2x512x2048.Idx → EReal) := by
  show (V m c main_v0 : S2x512x2048.Idx → EReal) = _
  dsimp only [V, hostOps0]; after_results; rfl

theorem arrR_eq (c : Dev nD) : arrR m c = (m ((c : Thread nD τ).loc main_arg4) : S2x512x2048.Idx → EReal) := by
  show (V m c main_v1 : S2x512x2048.Idx → EReal) = _
  dsimp only [V, hostOps0]; after_results; rfl

/-- The kernel's result as one function of its six arguments. -/
def launchResult (c : Dev nD) : Vec Ideal S2x2x16384x512 .f32 :=
  Lstm.result (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

theorem regionResult_eq (c : Dev nD) : regionResult m c = launchResult m c := by
  unfold regionResult launchResult
  rw [arrK_eq, arrR_eq]
  show Lstm.result (V m c main_arg0) (V m c main_arg1) (V m c main_arg2) _ _ (V m c main_arg5) = _
  rw [V_main_arg0, V_main_arg1, V_main_arg2, V_main_arg5]

/-- The kernel's run with its result array named, the arguments unchanged. -/
theorem run : θ_run defs (onTc (τ := τ) (main (F := Ideal))) ⟨m, fun _ => 0, ρ⟩ fun r => ∀ c : Dev nD,
      r.2.mem ((c : Thread nD τ).loc main_v2) = launchResult m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans ((final_region m c).trans (regionResult_eq m c)), (h c).2⟩)
    (Cert.KernelIdeal.Value.run_blocks m ρ)

end Cert.Lstm.Ker

end
-- ==== Proof.RefLayer0.lean ====
/-
  The reference program's first layer, read one element at a time.

  The program takes layer 0 out of each stacked argument and drops the unit axis, forms the two matrix products and
  the broadcast bias, cuts the 2048 pre-activation columns into the four gates, and spells the logistic function as
  1 / (1 + exp (-z)), the constant one given by its f32 word. At batch row b these are the pre-activations z0, the
  new cell row c0 and the emitted row e0 of that row's data: the input row, the rows of the two state arrays, and the
  whole kernels and biases. The second argument is the recurrent state (it meets the recurrent kernel in the second
  product) and the third is the carried cell (it multiplies the forget gate).
-/
import proofs.«121197_j76012331204660_1_alg».proof.Proof.Gen.ReferenceIdeal.Read
import proofs.«121197_j76012331204660_1_alg».proof.Proof.Cell
import Idealize.ShloMosaic.Lib.IdealHost

noncomputable section

open scoped BigOperators

namespace Cert.Lstm.Ref

open Idealize.ShloMosaic Idealize.ShloMosaic.ValueIdx Cert.ReferenceIdeal Cert.ReferenceIdeal.Read

/-- The program's spelling of the logistic function: one over one plus the exponential of the negation, the constant
    one being the f32 word 0x3F800000. -/
theorem logistic_spelt (z : EReal) :
    FloatOps.hostDivf (F := Ideal) (φ := .f32) (FloatOps.ofBits .f32 0x3F800000#32)
      (FloatOps.addf (FloatOps.ofBits .f32 0x3F800000#32) (FloatOps.hostUnary .exp (FloatOps.hostNegf z)))
      = Ideal.logistic z := by
  simp only [Ideal.hostDivf_def, Ideal.addf_def, Ideal.ofBits_def, Ideal.hostUnary_exp_def, Ideal.hostNegf_def,
    Ideal.negf_def, Ideal.ofBits_one_f32]
  rfl

variable (x0 : (⟨S16384x512, .f32⟩ : BufTy).Contents (Elt Ideal))
  (x1 x2 : (⟨S2x16384x512, .f32⟩ : BufTy).Contents (Elt Ideal))
  (x3 x4 : (⟨S2x512x2048, .f32⟩ : BufTy).Contents (Elt Ideal))
  (x5 : (⟨S2x2048, .f32⟩ : BufTy).Contents (Elt Ideal))

/-! ## The layer's operands: layer 0 of each stacked argument, unit axis dropped -/

/-- Layer 0 of the recurrent state at (b, k). -/
theorem recur0_at (b : Fin 16384) (k : Fin 512) :
    val_main_v1 (F := Ideal) x1 (ix2 b k) = x1 (ix3 (0 : Fin 2) b k) := by
  rw [val_main_v1_apply, val_main_v0_apply]
  have e : idx_main_v0 (idx_main_v1 (ix2 b k)) = ix3 (0 : Fin 2) b k := funext fun a => Fin.ext (by
    have hb := b.isLt; have hk := k.isLt
    match a with
    | ⟨0, _⟩ => rfl
    | ⟨1, _⟩ => show (b.val * 512 + k.val) / 512 % 16384 = b.val; omega
    | ⟨2, _⟩ => show (b.val * 512 + k.val) % 512 = k.val; omega)
  rw [e]

/-- Layer 0 of the carried cell at (b, s). -/
theorem carry0_at (b : Fin 16384) (s : Fin 512) :
    val_main_v3 (F := Ideal) x2 (ix2 b s) = x2 (ix3 (0 : Fin 2) b s) := by
  rw [val_main_v3_apply, val_main_v2_apply]
  have e : idx_main_v2 (idx_main_v3 (ix2 b s)) = ix3 (0 : Fin 2) b s := funext fun a => Fin.ext (by
    have hb := b.isLt; have hs := s.isLt
    match a with
    | ⟨0, _⟩ => rfl
    | ⟨1, _⟩ => show (b.val * 512 + s.val) / 512 % 16384 = b.val; omega
    | ⟨2, _⟩ => show (b.val * 512 + s.val) % 512 = s.val; omega)
  rw [e]

/-- Layer 0 of the input kernel at (k, j). -/
theorem kern0_at (k : Fin 512) (j : Fin 2048) :
    val_main_v5 (F := Ideal) x3 (ix2 k j) = x3 (ix3 (0 : Fin 2) k j) := by
  rw [val_main_v5_apply, val_main_v4_apply]
  have e : idx_main_v4 (idx_main_v5 (ix2 k j)) = ix3 (0 : Fin 2) k j := funext fun a => Fin.ext (by
    have hk := k.isLt; have hj := j.isLt
    match a with
    | ⟨0, _⟩ => rfl
    | ⟨1, _⟩ => show (k.val * 2048 + j.val) / 2048 % 512 = k.val; omega
    | ⟨2, _⟩ => show (k.val * 2048 + j.val) % 2048 = j.val; omega)
  rw [e]

/-- Layer 0 of the recurrent kernel at (k, j). -/
theorem rkern0_at (k : Fin 512) (j : Fin 2048) :
    val_main_v8 (F := Ideal) x4 (ix2 k j) = x4 (ix3 (0 : Fin 2) k j) := by
  rw [val_main_v8_apply, val_main_v7_apply]
  have e : idx_main_v7 (idx_main_v8 (ix2 k j)) = ix3 (0 : Fin 2) k j := funext fun a => Fin.ext (by
    have hk := k.isLt; have hj := j.isLt
    match a with
    | ⟨0, _⟩ => rfl
    | ⟨1, _⟩ => show (k.val * 2048 + j.val) / 2048 % 512 = k.val; omega
    | ⟨2, _⟩ => show (k.val * 2048 + j.val) % 2048 = j.val; omega)
  rw [e]

/-- Layer 0 of the bias, broadcast down the batch axis, at (b, j). -/
theorem bias0_at (b : Fin 16384) (j : Fin 2048) :
    val_main_v14 (F := Ideal) x5 (ix2 b j) = x5 (ix2 (0 : Fin 2) j) := by
  rw [val_main_v14_apply, val_main_v13_apply, val_main_v12_apply, val_main_v11_apply]
  have e : idx_main_v11 (idx_main_v12 (idx_main_v13 (idx_main_v14 (ix2 b j)))) = ix2 (0 : Fin 2) j :=
    funext fun a => Fin.ext (by
      have hj := j.isLt
      match a with
      | ⟨0, _⟩ => rfl
      | ⟨1, _⟩ => show j.val % 2048 = j.val; omega)
  rw [e]

/-! ## The two products and the pre-activations -/

/-- The input row times the input kernel's column. -/
theorem xdot0_at (b : Fin 16384) (j : Fin 2048) :
    val_main_v6 (F := Ideal) x0 x3 (ix2 b j) = ∑ k : Fin 512, x0 (ix2 b k) * x3 (ix3 (0 : Fin 2) k j) := by
  rw [val_main_v6_apply]
  refine Finset.sum_congr rfl fun k _ => ?_
  have el : lidx_main_v6 (ix2 b j) k = ix2 b k := funext fun a => Fin.ext (by
    match a with
    | ⟨0, _⟩ => rfl
    | ⟨1, _⟩ => rfl)
  have er : ridx_main_v6 (ix2 b j) k = ix2 k j := funext fun a => Fin.ext (by
    match a with
    | ⟨0, _⟩ => rfl
    | ⟨1, _⟩ => rfl)
  rw [el, er, kern0_at]

/-- The recurrent-state row times the recurrent kernel's column. -/
theorem rdot0_at (b : Fin 16384) (j : Fin 2048) :
    val_main_v9 (F := Ideal) x1 x4 (ix2 b j)
      = ∑ k : Fin 512, x1 (ix3 (0 : Fin 2) b k) * x4 (ix3 (0 : Fin 2) k j) := by
  rw [val_main_v9_apply]
  refine Finset.sum_congr rfl fun k _ => ?_
  have el : lidx_main_v9 (ix2 b j) k = ix2 b k := funext fun a => Fin.ext (by
    match a with
    | ⟨0, _⟩ => rfl
    | ⟨1, _⟩ => rfl)
  have er : ridx_main_v9 (ix2 b j) k = ix2 k j := funext fun a => Fin.ext (by
    match a with
    | ⟨0, _⟩ => rfl
    | ⟨1, _⟩ => rfl)
  rw [el, er, recur0_at, rkern0_at]

/-- The first layer's pre-activations of batch row b. -/
theorem pre0_at (b : Fin 16384) (j : Fin 2048) :
    val_main_v15 (F := Ideal) x0 x1 x3 x4 x5 (ix2 b j)
      = z0 (fun k => x0 (ix2 b k)) (fun l k => x1 (ix3 l b k)) (fun l k j => x3 (ix3 l k j))
          (fun l k j => x4 (ix3 l k j)) (fun l j => x5 (ix2 l j)) j := by
  rw [val_main_v15_apply, val_main_v10_apply, xdot0_at, rdot0_at, bias0_at]
  rfl

/-! ## The four gates: columns s, 512 + s, 1024 + s, 1536 + s of the pre-activations -/

/-- The logistic function of the input gate's column. -/
theorem igate0_at (b : Fin 16384) (s : Fin 512) :
    val_main_v32 (F := Ideal) x0 x1 x3 x4 x5 (ix2 b s)
      = Ideal.logistic (z0 (fun k => x0 (ix2 b k)) (fun l k => x1 (ix3 l b k)) (fun l k j => x3 (ix3 l k j))
          (fun l k j => x4 (ix3 l k j)) (fun l j => x5 (ix2 l j)) (gcol 0 (by decide) s)) := by
  have e : idx_main_v16 (ix2 b s) = ix2 b (gcol 0 (by decide) s) := funext fun a => Fin.ext (by
    match a with
    | ⟨0, _⟩ => rfl
    | ⟨1, _⟩ => show s.val = 0 + s.val; omega)
  rw [val_main_v32_apply, val_main_v31_apply, val_main_cst_2_apply, val_main_v30_apply, val_main_v29_apply,
    val_main_cst_1_apply, val_main_v28_apply, val_main_v27_apply, val_main_v16_apply, e, pre0_at]
  exact logistic_spelt _

/-- The logistic function of the forget gate's column. -/
theorem fgate0_at (b : Fin 16384) (s : Fin 512) :
    val_main_v25 (F := Ideal) x0 x1 x3 x4 x5 (ix2 b s)
      = Ideal.logistic (z0 (fun k => x0 (ix2 b k)) (fun l k => x1 (ix3 l b k)) (fun l k j => x3 (ix3 l k j))
          (fun l k j => x4 (ix3 l k j)) (fun l j => x5 (ix2 l j)) (gcol 512 (by decide) s)) := by
  have e : idx_main_v17 (ix2 b s) = ix2 b (gcol 512 (by decide) s) := funext fun a => Fin.ext (by
    match a with
    | ⟨0, _⟩ => rfl
    | ⟨1, _⟩ => rfl)
  rw [val_main_v25_apply, val_main_v24_apply, val_main_cst_0_apply, val_main_v23_apply, val_main_v22_apply,
    val_main_cst_apply, val_main_v21_apply, val_main_v20_apply, val_main_v17_apply, e, pre0_at]
  exact logistic_spelt _

/-- The hyperbolic tangent of the candidate's column. -/
theorem cand0_at (b : Fin 16384) (s : Fin 512) :
    val_main_v33 (F := Ideal) x0 x1 x3 x4 x5 (ix2 b s)
      = Ideal.tanh (z0 (fun k => x0 (ix2 b k)) (fun l k => x1 (ix3 l b k)) (fun l k j => x3 (ix3 l k j))
          (fun l k j => x4 (ix3 l k j)) (fun l j => x5 (ix2 l j)) (gcol 1024 (by decide) s)) := by
  have e : idx_main_v18 (ix2 b s) = ix2 b (gcol 1024 (by decide) s) := funext fun a => Fin.ext (by
    match a with
    | ⟨0, _⟩ => rfl
    | ⟨1, _⟩ => rfl)
  rw [val_main_v33_apply, val_main_v18_apply, e, pre0_at]
  rfl

/-- The logistic function of the output gate's column. -/
theorem ogate0_at (b : Fin 16384) (s : Fin 512) :
    val_main_v41 (F := Ideal) x0 x1 x3 x4 x5 (ix2 b s)
      = Ideal.logistic (z0 (fun k => x0 (ix2 b k)) (fun l k => x1 (ix3 l b k)) (fun l k j => x3 (ix3 l k j))
          (fun l k j => x4 (ix3 l k j)) (fun l j => x5 (ix2 l j)) (gcol 1536 (by decide) s)) := by
  have e : idx_main_v19 (ix2 b s) = ix2 b (gcol 1536 (by decide) s) := funext fun a => Fin.ext (by
    match a with
    | ⟨0, _⟩ => rfl
    | ⟨1, _⟩ => rfl)
  rw [val_main_v41_apply, val_main_v40_apply, val_main_cst_4_apply, val_main_v39_apply, val_main_v38_apply,
    val_main_cst_3_apply, val_main_v37_apply, val_main_v36_apply, val_main_v19_apply, e, pre0_at]
  exact logistic_spelt _

/-! ## The new cell row and the emitted row -/

/-- The first layer's new cell row of batch row b: forget gate times carried cell plus input gate times candidate. -/
theorem cell0_at (b : Fin 16384) (s : Fin 512) :
    val_main_v35 (F := Ideal) x0 x1 x2 x3 x4 x5 (ix2 b s)
      = c0 (fun k => x0 (ix2 b k)) (fun l k => x1 (ix3 l b k)) (fun l k => x2 (ix3 l b k))
          (fun l k j => x3 (ix3 l k j)) (fun l k j => x4 (ix3 l k j)) (fun l j => x5 (ix2 l j)) s := by
  rw [val_main_v35_apply, val_main_v26_apply, val_main_v34_apply, fgate0_at, carry0_at, igate0_at, cand0_at]
  rfl

/-- The first layer's emitted row of batch row b: output gate times the hyperbolic tangent of the new cell. -/
theorem emit0_at (b : Fin 16384) (s : Fin 512) :
    val_main_v43 (F := Ideal) x0 x1 x2 x3 x4 x5 (ix2 b s)
      = e0 (fun k => x0 (ix2 b k)) (fun l k => x1 (ix3 l b k)) (fun l k => x2 (ix3 l b k))
          (fun l k j => x3 (ix3 l k j)) (fun l k j => x4 (ix3 l k j)) (fun l j => x5 (ix2 l j)) s := by
  rw [val_main_v43_apply, val_main_v42_apply, ogate0_at, cell0_at]
  rfl

end Cert.Lstm.Ref

end
-- ==== Proof.RefLayer1.lean ====
/-
  The reference program's second layer, read one element at a time.

  The second layer takes layer 1 out of each stacked argument, and its input is the first layer's new cell row. Its
  pre-activations, new cell row and emitted row at batch row b are z1, c1 and e1 of that row's data.
-/
import proofs.«121197_j76012331204660_1_alg».proof.Proof.RefLayer0

noncomputable section

open scoped BigOperators

namespace Cert.Lstm.Ref

open Idealize.ShloMosaic Idealize.ShloMosaic.ValueIdx Cert.ReferenceIdeal Cert.ReferenceIdeal.Read

variable (x0 : (⟨S16384x512, .f32⟩ : BufTy).Contents (Elt Ideal))
  (x1 x2 : (⟨S2x16384x512, .f32⟩ : BufTy).Contents (Elt Ideal))
  (x3 x4 : (⟨S2x512x2048, .f32⟩ : BufTy).Contents (Elt Ideal))
  (x5 : (⟨S2x2048, .f32⟩ : BufTy).Contents (Elt Ideal))

/-! ## The layer's operands: layer 1 of each stacked argument, unit axis dropped -/

/-- Layer 1 of the recurrent state at (b, k). -/
theorem recur1_at (b : Fin 16384) (k : Fin 512) :
    val_main_v45 (F := Ideal) x1 (ix2 b k) = x1 (ix3 (1 : Fin 2) b k) := by
  rw [val_main_v45_apply, val_main_v44_apply]
  have e : idx_main_v44 (idx_main_v45 (ix2 b k)) = ix3 (1 : Fin 2) b k := funext fun a => Fin.ext (by
    have hb := b.isLt; have hk := k.isLt
    match a with
    | ⟨0, _⟩ => rfl
    | ⟨1, _⟩ => show (b.val * 512 + k.val) / 512 % 16384 = b.val; omega
    | ⟨2, _⟩ => show (b.val * 512 + k.val) % 512 = k.val; omega)
  rw [e]

/-- Layer 1 of the carried cell at (b, s). -/
theorem carry1_at (b : Fin 16384) (s : Fin 512) :
    val_main_v47 (F := Ideal) x2 (ix2 b s) = x2 (ix3 (1 : Fin 2) b s) := by
  rw [val_main_v47_apply, val_main_v46_apply]
  have e : idx_main_v46 (idx_main_v47 (ix2 b s)) = ix3 (1 : Fin 2) b s := funext fun a => Fin.ext (by
    have hb := b.isLt; have hs := s.isLt
    match a with
    | ⟨0, _⟩ => rfl
    | ⟨1, _⟩ => show (b.val * 512 + s.val) / 512 % 16384 = b.val; omega
    | ⟨2, _⟩ => show (b.val * 512 + s.val) % 512 = s.val; omega)
  rw [e]

/-- Layer 1 of the input kernel at (k, j). -/
theorem kern1_at (k : Fin 512) (j : Fin 2048) :
    val_main_v49 (F := Ideal) x3 (ix2 k j) = x3 (ix3 (1 : Fin 2) k j) := by
  rw [val_main_v49_apply, val_main_v48_apply]
  have e : idx_main_v48 (idx_main_v49 (ix2 k j)) = ix3 (1 : Fin 2) k j := funext fun a => Fin.ext (by
    have hk := k.isLt; have hj := j.isLt
    match a with
    | ⟨0, _⟩ => rfl
    | ⟨1, _⟩ => show (k.val * 2048 + j.val) / 2048 % 512 = k.val; omega
    | ⟨2, _⟩ => show (k.val * 2048 + j.val) % 2048 = j.val; omega)
  rw [e]

/-- Layer 1 of the recurrent kernel at (k, j). -/
theorem rkern1_at (k : Fin 512) (j : Fin 2048) :
    val_main_v52 (F := Ideal) x4 (ix2 k j) = x4 (ix3 (1 : Fin 2) k j) := by
  rw [val_main_v52_apply, val_main_v51_apply]
  have e : idx_main_v51 (idx_main_v52 (ix2 k j)) = ix3 (1 : Fin 2) k j := funext fun a => Fin.ext (by
    have hk := k.isLt; have hj := j.isLt
    match a with
    | ⟨0, _⟩ => rfl
    | ⟨1, _⟩ => show (k.val * 2048 + j.val) / 2048 % 512 = k.val; omega
    | ⟨2, _⟩ => show (k.val * 2048 + j.val) % 2048 = j.val; omega)
  rw [e]

/-- Layer 1 of the bias, broadcast down the batch axis, at (b, j). -/
theorem bias1_at (b : Fin 16384) (j : Fin 2048) :
    val_main_v58 (F := Ideal) x5 (ix2 b j) = x5 (ix2 (1 : Fin 2) j) := by
  rw [val_main_v58_apply, val_main_v57_apply, val_main_v56_apply, val_main_v55_apply]
  have e : idx_main_v55 (idx_main_v56 (idx_main_v57 (idx_main_v58 (ix2 b j)))) = ix2 (1 : Fin 2) j :=
    funext fun a => Fin.ext (by
      have hj := j.isLt
      match a with
      | ⟨0, _⟩ => rfl
      | ⟨1, _⟩ => show j.val % 2048 = j.val; omega)
  rw [e]

/-! ## The two products and the pre-activations -/

/-- The first layer's new cell row times the input kernel's column. -/
theorem xdot1_at (b : Fin 16384) (j : Fin 2048) :
    val_main_v50 (F := Ideal) x0 x1 x2 x3 x4 x5 (ix2 b j)
      = ∑ k : Fin 512, c0 (fun k => x0 (ix2 b k)) (fun l k => x1 (ix3 l b k)) (fun l k => x2 (ix3 l b k))
          (fun l k j => x3 (ix3 l k j)) (fun l k j => x4 (ix3 l k j)) (fun l j => x5 (ix2 l j)) k
          * x3 (ix3 (1 : Fin 2) k j) := by
  rw [val_main_v50_apply]
  refine Finset.sum_congr rfl fun k _ => ?_
  have el : lidx_main_v50 (ix2 b j) k = ix2 b k := funext fun a => Fin.ext (by
    match a with
    | ⟨0, _⟩ => rfl
    | ⟨1, _⟩ => rfl)
  have er : ridx_main_v50 (ix2 b j) k = ix2 k j := funext fun a => Fin.ext (by
    match a with
    | ⟨0, _⟩ => rfl
    | ⟨1, _⟩ => rfl)
  rw [el, er, cell0_at, kern1_at]

/-- The recurrent-state row times the recurrent kernel's column. -/
theorem rdot1_at (b : Fin 16384) (j : Fin 2048) :
    val_main_v53 (F := Ideal) x1 x4 (ix2 b j)
      = ∑ k : Fin 512, x1 (ix3 (1 : Fin 2) b k) * x4 (ix3 (1 : Fin 2) k j) := by
  rw [val_main_v53_apply]
  refine Finset.sum_congr rfl fun k _ => ?_
  have el : lidx_main_v53 (ix2 b j) k = ix2 b k := funext fun a => Fin.ext (by
    match a with
    | ⟨0, _⟩ => rfl
    | ⟨1, _⟩ => rfl)
  have er : ridx_main_v53 (ix2 b j) k = ix2 k j := funext fun a => Fin.ext (by
    match a with
    | ⟨0, _⟩ => rfl
    | ⟨1, _⟩ => rfl)
  rw [el, er, recur1_at, rkern1_at]

/-- The second layer's pre-activations of batch row b. -/
theorem pre1_at (b : Fin 16384) (j : Fin 2048) :
    val_main_v59 (F := Ideal) x0 x1 x2 x3 x4 x5 (ix2 b j)
      = z1 (fun k => x0 (ix2 b k)) (fun l k => x1 (ix3 l b k)) (fun l k => x2 (ix3 l b k))
          (fun l k j => x3 (ix3 l k j)) (fun l k j => x4 (ix3 l k j)) (fun l j => x5 (ix2 l j)) j := by
  rw [val_main_v59_apply, val_main_v54_apply, xdot1_at, rdot1_at, bias1_at]
  rfl

/-! ## The four gates: columns s, 512 + s, 1024 + s, 1536 + s of the pre-activations -/

/-- The logistic function of the input gate's column. -/
theorem igate1_at (b : Fin 16384) (s : Fin 512) :
    val_main_v76 (F := Ideal) x0 x1 x2 x3 x4 x5 (ix2 b s)
      = Ideal.logistic (z1 (fun k => x0 (ix2 b k)) (fun l k => x1 (ix3 l b k)) (fun l k => x2 (ix3 l b k))
          (fun l k j => x3 (ix3 l k j)) (fun l k j => x4 (ix3 l k j)) (fun l j => x5 (ix2 l j))
          (gcol 0 (by decide) s)) := by
  have e : idx_main_v60 (ix2 b s) = ix2 b (gcol 0 (by decide) s) := funext fun a => Fin.ext (by
    match a with
    | ⟨0, _⟩ => rfl
    | ⟨1, _⟩ => show s.val = 0 + s.val; omega)
  rw [val_main_v76_apply, val_main_v75_apply, val_main_cst_8_apply, val_main_v74_apply, val_main_v73_apply,
    val_main_cst_7_apply, val_main_v72_apply, val_main_v71_apply, val_main_v60_apply, e, pre1_at]
  exact logistic_spelt _

/-- The logistic function of the forget gate's column. -/
theorem fgate1_at (b : Fin 16384) (s : Fin 512) :
    val_main_v69 (F := Ideal) x0 x1 x2 x3 x4 x5 (ix2 b s)
      = Ideal.logistic (z1 (fun k => x0 (ix2 b k)) (fun l k => x1 (ix3 l b k)) (fun l k => x2 (ix3 l b k))
          (fun l k j => x3 (ix3 l k j)) (fun l k j => x4 (ix3 l k j)) (fun l j => x5 (ix2 l j))
          (gcol 512 (by decide) s)) := by
  have e : idx_main_v61 (ix2 b s) = ix2 b (gcol 512 (by decide) s) := funext fun a => Fin.ext (by
    match a with
    | ⟨0, _⟩ => rfl
    | ⟨1, _⟩ => rfl)
  rw [val_main_v69_apply, val_main_v68_apply, val_main_cst_6_apply, val_main_v67_apply, val_main_v66_apply,
    val_main_cst_5_apply, val_main_v65_apply, val_main_v64_apply, val_main_v61_apply, e, pre1_at]
  exact logistic_spelt _

/-- The hyperbolic tangent of the candidate's column. -/
theorem cand1_at (b : Fin 16384) (s : Fin 512) :
    val_main_v77 (F := Ideal) x0 x1 x2 x3 x4 x5 (ix2 b s)
      = Ideal.tanh (z1 (fun k => x0 (ix2 b k)) (fun l k => x1 (ix3 l b k)) (fun l k => x2 (ix3 l b k))
          (fun l k j => x3 (ix3 l k j)) (fun l k j => x4 (ix3 l k j)) (fun l j => x5 (ix2 l j))
          (gcol 1024 (by decide) s)) := by
  have e : idx_main_v62 (ix2 b s) = ix2 b (gcol 1024 (by decide) s) := funext fun a => Fin.ext (by
    match a with
    | ⟨0, _⟩ => rfl
    | ⟨1, _⟩ => rfl)
  rw [val_main_v77_apply, val_main_v62_apply, e, pre1_at]
  rfl

/-- The logistic function of the output gate's column. -/
theorem ogate1_at (b : Fin 16384) (s : Fin 512) :
    val_main_v85 (F := Ideal) x0 x1 x2 x3 x4 x5 (ix2 b s)
      = Ideal.logistic (z1 (fun k => x0 (ix2 b k)) (fun l k => x1 (ix3 l b k)) (fun l k => x2 (ix3 l b k))
          (fun l k j => x3 (ix3 l k j)) (fun l k j => x4 (ix3 l k j)) (fun l j => x5 (ix2 l j))
          (gcol 1536 (by decide) s)) := by
  have e : idx_main_v63 (ix2 b s) = ix2 b (gcol 1536 (by decide) s) := funext fun a => Fin.ext (by
    match a with
    | ⟨0, _⟩ => rfl
    | ⟨1, _⟩ => rfl)
  rw [val_main_v85_apply, val_main_v84_apply, val_main_cst_10_apply, val_main_v83_apply, val_main_v82_apply,
    val_main_cst_9_apply, val_main_v81_apply, val_main_v80_apply, val_main_v63_apply, e, pre1_at]
  exact logistic_spelt _

/-! ## The new cell row and the emitted row -/

/-- The second layer's new cell row of batch row b. -/
theorem cell1_at (b : Fin 16384) (s : Fin 512) :
    val_main_v79 (F := Ideal) x0 x1 x2 x3 x4 x5 (ix2 b s)
      = c1 (fun k => x0 (ix2 b k)) (fun l k => x1 (ix3 l b k)) (fun l k => x2 (ix3 l b k))
          (fun l k j => x3 (ix3 l k j)) (fun l k j => x4 (ix3 l k j)) (fun l j => x5 (ix2 l j)) s := by
  rw [val_main_v79_apply, val_main_v70_apply, val_main_v78_apply, fgate1_at, carry1_at, igate1_at, cand1_at]
  rfl

/-- The second layer's emitted row of batch row b. -/
theorem emit1_at (b : Fin 16384) (s : Fin 512) :
    val_main_v87 (F := Ideal) x0 x1 x2 x3 x4 x5 (ix2 b s)
      = e1 (fun k => x0 (ix2 b k)) (fun l k => x1 (ix3 l b k)) (fun l k => x2 (ix3 l b k))
          (fun l k j => x3 (ix3 l k j)) (fun l k j => x4 (ix3 l k j)) (fun l j => x5 (ix2 l j)) s := by
  rw [val_main_v87_apply, val_main_v86_apply, ogate1_at, cell1_at]
  rfl

end Cert.Lstm.Ref

end
-- ==== Proof.RefStack.lean ====
/-
  The reference program's result: the two layers' rows stacked.

  The program stacks the two emitted rows along a new leading axis, the two new cell rows likewise, and then those two
  stacks along a new second axis. So the element at (l, p, b, s) is layer l's emitted value (p = 0) or new cell value
  (p = 1) of hidden unit s at batch row b, which is what the specification's result says.
-/
import proofs.«121197_j76012331204660_1_alg».proof.Proof.RefLayer1
import Idealize.ShloMosaic.Lib.Pipeline.Value

noncomputable section

open scoped BigOperators

namespace Cert.Lstm.Ref

open Idealize.ShloMosaic Idealize.ShloMosaic.ValueIdx Cert.ReferenceIdeal Cert.ReferenceIdeal.Read

variable (x0 : (⟨S16384x512, .f32⟩ : BufTy).Contents (Elt Ideal))
  (x1 x2 : (⟨S2x16384x512, .f32⟩ : BufTy).Contents (Elt Ideal))
  (x3 x4 : (⟨S2x512x2048, .f32⟩ : BufTy).Contents (Elt Ideal))
  (x5 : (⟨S2x2048, .f32⟩ : BufTy).Contents (Elt Ideal))

/-! ## The stack of the two emitted rows, and of the two new cell rows, along the layer axis -/

/-- The emitted rows stacked, at layer 0: the first layer's emitted row. -/
theorem emits0_at (b : Fin 16384) (s : Fin 512) :
    val_main_v90 (F := Ideal) x0 x1 x2 x3 x4 x5 (ix3 (0 : Fin 2) b s)
      = e0 (fun k => x0 (ix2 b k)) (fun l k => x1 (ix3 l b k)) (fun l k => x2 (ix3 l b k))
          (fun l k j => x3 (ix3 l k j)) (fun l k j => x4 (ix3 l k j)) (fun l j => x5 (ix2 l j)) s := by
  have hc : val_main_v90 (F := Ideal) x0 x1 x2 x3 x4 x5 (ix3 (0 : Fin 2) b s)
      = val_main_v88 (F := Ideal) x0 x1 x2 x3 x4 x5 (ix3 (0 : Fin 1) b s) := by
    unfold val_main_v90
    exact concatenate_pair_apply_left (t := S2x16384x512) (s₁ := S1x16384x512) (s₂ := S1x16384x512) 0 _ _ _
      (ix3 (0 : Fin 2) b s) rfl (ix3 (0 : Fin 1) b s) (fun c => by
        match c with
        | ⟨0, _⟩ => rfl
        | ⟨1, _⟩ => rfl
        | ⟨2, _⟩ => rfl)
  have e : idx_main_v88 (ix3 (0 : Fin 1) b s) = ix2 b s := funext fun a => Fin.ext (by
    match a with
    | ⟨0, _⟩ => rfl
    | ⟨1, _⟩ => rfl)
  rw [hc, val_main_v88_apply, e, emit0_at]

/-- The emitted rows stacked, at layer 1: the second layer's emitted row. -/
theorem emits1_at (b : Fin 16384) (s : Fin 512) :
    val_main_v90 (F := Ideal) x0 x1 x2 x3 x4 x5 (ix3 (1 : Fin 2) b s)
      = e1 (fun k => x0 (ix2 b k)) (fun l k => x1 (ix3 l b k)) (fun l k => x2 (ix3 l b k))
          (fun l k j => x3 (ix3 l k j)) (fun l k j => x4 (ix3 l k j)) (fun l j => x5 (ix2 l j)) s := by
  have hc : val_main_v90 (F := Ideal) x0 x1 x2 x3 x4 x5 (ix3 (1 : Fin 2) b s)
      = val_main_v89 (F := Ideal) x0 x1 x2 x3 x4 x5 (ix3 (0 : Fin 1) b s) := by
    unfold val_main_v90
    exact concatenate_pair_apply_right (t := S2x16384x512) (s₁ := S1x16384x512) (s₂ := S1x16384x512) 0 _ _ _
      (ix3 (1 : Fin 2) b s) rfl rfl (ix3 (0 : Fin 1) b s) (fun c hne => by
        match c, hne with
        | ⟨0, _⟩, hne => exact absurd rfl hne
        | ⟨1, _⟩, _ => rfl
        | ⟨2, _⟩, _ => rfl) rfl
  have e : idx_main_v89 (ix3 (0 : Fin 1) b s) = ix2 b s := funext fun a => Fin.ext (by
    match a with
    | ⟨0, _⟩ => rfl
    | ⟨1, _⟩ => rfl)
  rw [hc, val_main_v89_apply, e, emit1_at]

/-- The new cell rows stacked, at layer 0: the first layer's new cell row. -/
theorem cells0_at (b : Fin 16384) (s : Fin 512) :
    val_main_v93 (F := Ideal) x0 x1 x2 x3 x4 x5 (ix3 (0 : Fin 2) b s)
      = c0 (fun k => x0 (ix2 b k)) (fun l k => x1 (ix3 l b k)) (fun l k => x2 (ix3 l b k))
          (fun l k j => x3 (ix3 l k j)) (fun l k j => x4 (ix3 l k j)) (fun l j => x5 (ix2 l j)) s := by
  have hc : val_main_v93 (F := Ideal) x0 x1 x2 x3 x4 x5 (ix3 (0 : Fin 2) b s)
      = val_main_v91 (F := Ideal) x0 x1 x2 x3 x4 x5 (ix3 (0 : Fin 1) b s) := by
    unfold val_main_v93
    exact concatenate_pair_apply_left (t := S2x16384x512) (s₁ := S1x16384x512) (s₂ := S1x16384x512) 0 _ _ _
      (ix3 (0 : Fin 2) b s) rfl (ix3 (0 : Fin 1) b s) (fun c => by
        match c with
        | ⟨0, _⟩ => rfl
        | ⟨1, _⟩ => rfl
        | ⟨2, _⟩ => rfl)
  have e : idx_main_v91 (ix3 (0 : Fin 1) b s) = ix2 b s := funext fun a => Fin.ext (by
    match a with
    | ⟨0, _⟩ => rfl
    | ⟨1, _⟩ => rfl)
  rw [hc, val_main_v91_apply, e, cell0_at]

/-- The new cell rows stacked, at layer 1: the second layer's new cell row. -/
theorem cells1_at (b : Fin 16384) (s : Fin 512) :
    val_main_v93 (F := Ideal) x0 x1 x2 x3 x4 x5 (ix3 (1 : Fin 2) b s)
      = c1 (fun k => x0 (ix2 b k)) (fun l k => x1 (ix3 l b k)) (fun l k => x2 (ix3 l b k))
          (fun l k j => x3 (ix3 l k j)) (fun l k j => x4 (ix3 l k j)) (fun l j => x5 (ix2 l j)) s := by
  have hc : val_main_v93 (F := Ideal) x0 x1 x2 x3 x4 x5 (ix3 (1 : Fin 2) b s)
      = val_main_v92 (F := Ideal) x0 x1 x2 x3 x4 x5 (ix3 (0 : Fin 1) b s) := by
    unfold val_main_v93
    exact concatenate_pair_apply_right (t := S2x16384x512) (s₁ := S1x16384x512) (s₂ := S1x16384x512) 0 _ _ _
      (ix3 (1 : Fin 2) b s) rfl rfl (ix3 (0 : Fin 1) b s) (fun c hne => by
        match c, hne with
        | ⟨0, _⟩, hne => exact absurd rfl hne
        | ⟨1, _⟩, _ => rfl
        | ⟨2, _⟩, _ => rfl) rfl
  have e : idx_main_v92 (ix3 (0 : Fin 1) b s) = ix2 b s := funext fun a => Fin.ext (by
    match a with
    | ⟨0, _⟩ => rfl
    | ⟨1, _⟩ => rfl)
  rw [hc, val_main_v92_apply, e, cell1_at]

/-! ## The two stacks joined along the position axis -/

/-- Position 0 of the result is the stack of emitted rows. -/
theorem emitted_at (l : Fin 2) (b : Fin 16384) (s : Fin 512) :
    val_main_v96 (F := Ideal) x0 x1 x2 x3 x4 x5 (ix4 l (0 : Fin 2) b s)
      = val_main_v90 (F := Ideal) x0 x1 x2 x3 x4 x5 (ix3 l b s) := by
  have hc : val_main_v96 (F := Ideal) x0 x1 x2 x3 x4 x5 (ix4 l (0 : Fin 2) b s)
      = val_main_v94 (F := Ideal) x0 x1 x2 x3 x4 x5 (ix4 l (0 : Fin 1) b s) := by
    unfold val_main_v96
    exact concatenate_pair_apply_left (t := S2x2x16384x512) (s₁ := S2x1x16384x512) (s₂ := S2x1x16384x512) 1 _ _ _
      (ix4 l (0 : Fin 2) b s) rfl (ix4 l (0 : Fin 1) b s) (fun c => by
        match c with
        | ⟨0, _⟩ => rfl
        | ⟨1, _⟩ => rfl
        | ⟨2, _⟩ => rfl
        | ⟨3, _⟩ => rfl)
  have e : idx_main_v94 (ix4 l (0 : Fin 1) b s) = ix3 l b s := funext fun a => Fin.ext (by
    match a with
    | ⟨0, _⟩ => rfl
    | ⟨1, _⟩ => rfl
    | ⟨2, _⟩ => rfl)
  rw [hc, val_main_v94_apply, e]

/-- Position 1 of the result is the stack of new cell rows. -/
theorem newcell_at (l : Fin 2) (b : Fin 16384) (s : Fin 512) :
    val_main_v96 (F := Ideal) x0 x1 x2 x3 x4 x5 (ix4 l (1 : Fin 2) b s)
      = val_main_v93 (F := Ideal) x0 x1 x2 x3 x4 x5 (ix3 l b s) := by
  have hc : val_main_v96 (F := Ideal) x0 x1 x2 x3 x4 x5 (ix4 l (1 : Fin 2) b s)
      = val_main_v95 (F := Ideal) x0 x1 x2 x3 x4 x5 (ix4 l (0 : Fin 1) b s) := by
    unfold val_main_v96
    exact concatenate_pair_apply_right (t := S2x2x16384x512) (s₁ := S2x1x16384x512) (s₂ := S2x1x16384x512) 1 _ _ _
      (ix4 l (1 : Fin 2) b s) rfl rfl (ix4 l (0 : Fin 1) b s) (fun c hne => by
        match c, hne with
        | ⟨0, _⟩, _ => rfl
        | ⟨1, _⟩, hne => exact absurd rfl hne
        | ⟨2, _⟩, _ => rfl
        | ⟨3, _⟩, _ => rfl) rfl
  have e : idx_main_v95 (ix4 l (0 : Fin 1) b s) = ix3 l b s := funext fun a => Fin.ext (by
    match a with
    | ⟨0, _⟩ => rfl
    | ⟨1, _⟩ => rfl
    | ⟨2, _⟩ => rfl)
  rw [hc, val_main_v95_apply, e]

/-- The result at (l, p, b, s): layer l's emitted row (p = 0) or new cell row (p = 1) of batch row b. -/
theorem stack_at (l p : Fin 2) (b : Fin 16384) (s : Fin 512) :
    val_main_v96 (F := Ideal) x0 x1 x2 x3 x4 x5 (ix4 l p b s)
      = stacked (fun k => x0 (ix2 b k)) (fun l k => x1 (ix3 l b k)) (fun l k => x2 (ix3 l b k))
          (fun l k j => x3 (ix3 l k j)) (fun l k j => x4 (ix3 l k j)) (fun l j => x5 (ix2 l j)) l.val p.val s := by
  match l, p with
  | ⟨0, _⟩, ⟨0, _⟩ => exact (emitted_at x0 x1 x2 x3 x4 x5 0 b s).trans (emits0_at x0 x1 x2 x3 x4 x5 b s)
  | ⟨0, _⟩, ⟨1, _⟩ => exact (newcell_at x0 x1 x2 x3 x4 x5 0 b s).trans (cells0_at x0 x1 x2 x3 x4 x5 b s)
  | ⟨1, _⟩, ⟨0, _⟩ => exact (emitted_at x0 x1 x2 x3 x4 x5 1 b s).trans (emits1_at x0 x1 x2 x3 x4 x5 b s)
  | ⟨1, _⟩, ⟨1, _⟩ => exact (newcell_at x0 x1 x2 x3 x4 x5 1 b s).trans (cells1_at x0 x1 x2 x3 x4 x5 b s)

/-- The reference program's result is the specification's result. -/
theorem val_eq_result :
    Cert.ReferenceIdeal.Read.val_main_v96 (F := Ideal) x0 x1 x2 x3 x4 x5 = Cert.Lstm.result x0 x1 x2 x3 x4 x5 := by
  funext i
  obtain ⟨l, p, b, s, rfl⟩ : ∃ (l p : Fin 2) (b : Fin 16384) (s : Fin 512), i = ix4 l p b s :=
    ⟨i 0, i 1, i 2, i 3, eq_ix4 i⟩
  exact stack_at x0 x1 x2 x3 x4 x5 l p b s

end Cert.Lstm.Ref

end
-- ==== Proof.lean ====
/-
  A two-layer stacked LSTM step over 16384 batch rows, computed by one kernel launch over 32 blocks of 512 rows,
  against the plain array program.

  Both programs compute, row by row, `Lstm.result` (Proof/Cell.lean): per layer the gate pre-activations
  `x ⬝ K + r ⬝ R + b`, the new cell `σ(f) · c + σ(i) · tanh(g)` and the emitted value `σ(o) · tanh(new cell)`, the second
  layer fed the first layer's new cell, the four rows stacked. On the extended reals the kernel's narrowing of its
  matrix operands is the identity and its one-operation logistic is the reference's `1 / (1 + exp (-z))`; the two
  sides are the same expression, so no law of arithmetic and no finiteness of the inputs is used.
  The kernel side: Proof/KerGates.lean, KerCell.lean (the body's values at an entry), KerBlock.lean (the output block as
  one function of the input blocks), KerArray.lean (from blocks to the result array). The reference side:
  Proof/RefLayer0.lean, RefLayer1.lean, RefStack.lean (the program's stages at an entry, and the stacking).
-/
import proofs.«121197_j76012331204660_1_alg».proof.Defs
import proofs.«121197_j76012331204660_1_alg».proof.Proof.Gen.Kernel
import proofs.«121197_j76012331204660_1_alg».proof.Proof.Gen.Kernel.Skeleton
import proofs.«121197_j76012331204660_1_alg».proof.Proof.Gen.Kernel.Launch
import proofs.«121197_j76012331204660_1_alg».proof.Proof.Gen.Kernel.Points
import proofs.«121197_j76012331204660_1_alg».proof.Proof.Gen.Kernel.Frame
import proofs.«121197_j76012331204660_1_alg».proof.Proof.Gen.KernelIdeal
import proofs.«121197_j76012331204660_1_alg».proof.Proof.Gen.KernelIdeal.Skeleton
import proofs.«121197_j76012331204660_1_alg».proof.Proof.Gen.KernelIdeal.Launch
import proofs.«121197_j76012331204660_1_alg».proof.Proof.Gen.KernelIdeal.Points
import proofs.«121197_j76012331204660_1_alg».proof.Proof.Gen.KernelIdeal.Frame
import proofs.«121197_j76012331204660_1_alg».proof.Proof.Gen.KernelIdeal.Value
import proofs.«121197_j76012331204660_1_alg».proof.Proof.Gen.ReferenceIdeal
import proofs.«121197_j76012331204660_1_alg».proof.Proof.Gen.ReferenceIdeal.Run
import proofs.«121197_j76012331204660_1_alg».proof.Proof.Gen.ReferenceIdeal.Read
import proofs.«121197_j76012331204660_1_alg».proof.Proof.Gen.Pre_finite_inputs
import proofs.«121197_j76012331204660_1_alg».proof.Proof.KerArray
import proofs.«121197_j76012331204660_1_alg».proof.Proof.RefStack
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference runs and leaves its arguments as they were: its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with their result array at `Lstm.result` of the (agreeing) argument arrays. -/
theorem algebraic : Cert.algebraic_KernelIdeal_ReferenceIdeal := by
  intro m ρ m' ρ' _ hagree
  refine ⟨fun c => Cert.Lstm.Ker.launchResult m c, Cert.Lstm.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, Cert.Lstm.Ref.val_eq_result, (hagree c).1, (hagree c).2.1,
    (hagree c).2.2.1, (hagree c).2.2.2.1, (hagree c).2.2.2.2.1, (hagree c).2.2.2.2.2]
  rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
